-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10x128 : Shape := ⟨2, ![10, 128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_

variable [Facts]

def fn_part1 {F : FTy → Type} [FloatOps F] (main_arg4 : FVec F S128x128 .f32) (main_arg5 : FVec F S10x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S10x128 .f32 := Host.absf main_arg5
  let main_cst_8 : FVec F S_ .f32 := constant S_ .f32 0x7F800000#32
  let main_v25 : FVec F S10x128 .f32 := broadcastInDim S10x128 ![] bcast_S_S10x128 main_cst_8
  let main_v26 : IVec S10x128 1 := cmpf .olt main_v24 main_v25
  let main_c_9 : IVec S_ 1 := constantI S_ 1 1#1
  let main_v27 : IVec S_ 1 := (fun x v => Host.reduce IntOp.andi x v reducesTo_S10x128_S_d0_1 h_S_) main_v26 main_c_9
  let main_v28 : IVec S_ 1 := andi main_v23 main_v27
  main_v28

def fn {F : FTy → Type} [FloatOps F] (main_arg0 : FVec F S1x10000x128 .f32) (main_arg1 : FVec F S1x10000x10000 .f32) (main_arg2 : FVec F S128x128 .f32) (main_arg3 : FVec F S128 .f32) (main_arg4 : FVec F S128x128 .f32) (main_arg5 : FVec F S10x128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10x128 : Shape := ⟨2, ![10, 128]⟩
abbrev S10000x128 : Shape := ⟨2, ![10000, 128]⟩
abbrev S10000x10000 : Shape := ⟨2, ![10000, 10000]⟩
abbrev S1x128 : Shape := ⟨2, ![1, 128]⟩
abbrev S10000x10 : Shape := ⟨2, ![10000, 10]⟩
abbrev S400x10000 : Shape := ⟨2, ![400, 10000]⟩
abbrev S400x128 : Shape := ⟨2, ![400, 128]⟩
abbrev S10000 : Shape := ⟨1, ![10000]⟩
abbrev S10000x1 : Shape := ⟨2, ![10000, 1]⟩
abbrev S10 : Shape := ⟨1, ![10]⟩
abbrev S1x10 : Shape := ⟨2, ![1, 10]⟩

abbrev nBuf : Space → Nat
  | .hbm => 11
  | .vmem => 11
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10x128, .f32⟩
  | .hbm, ⟨6, _⟩ => ⟨S10000x128, .f32⟩
  | .hbm, ⟨7, _⟩ => ⟨S10000x10000, .f32⟩
  | .hbm, ⟨8, _⟩ => ⟨S1x128, .f32⟩
  | .hbm, ⟨9, _⟩ => ⟨S10000x128, .f32⟩
  | .hbm, ⟨10, _⟩ => ⟨S10000x10, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S10x128, .f32⟩
  | .local _ .vmem, ⟨7, _⟩ => ⟨S400x128, .f32⟩
  | .local _ .vmem, ⟨8, _⟩ => ⟨S400x128, .f32⟩
  | .local _ .vmem, ⟨9, _⟩ => ⟨S10000x10, .f32⟩
  | .local _ .vmem, ⟨10, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S10000x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10x128_S10x128_0_0 : ∀ a, (![0, 0] : Fin 2 → Nat) a + S10x128.size a ≤ S10x128.size a
  h_S10x128 : 0 < S10x128.numel
  reduces_S10000x128_S10000 : S10000x128.Reduces [1] S10000
  shapeCasts_S10000_S10000x1 : S10000.ShapeCasts S10000x1
  reduces_S10x128_S10 : S10x128.Reduces [1] S10
  shapeCasts_S10_S1x10 : S10.ShapeCasts S1x10
  broadcasts_S10000x1_S10000x10 : S10000x1.Broadcasts S10000x10
  broadcasts_S1x10_S10000x10 : S1x10.Broadcasts S10000x10
  reduces_S10000x10_S10000 : S10000x10.Reduces [1] S10000
  inb_S10000x10_S10000x10_0_0 : ∀ a, (![0, 0] : Fin 2 → Nat) a + S10000x10.size a ≤ S10000x10.size a
  h_S10000x10 : 0 < S10000x10.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S10000x128_S10x128_S10000x10_1_1_0_0_n_n_wf : DotDims.WF S10000x128 S10x128 S10000x10 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x128.size a
  hwx0_5 : ∀ i : grid0.Coords, EltTy.bits .f32 = 32 ∨ (Rect.block (s := S10x128) S10x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10000x10.size a ≤ S10000x10.size a
  hwx0_7 : ∀ i : grid0.Coords, EltTy.bits .f32 = 32 ∨ (Rect.block (s := S10000x10) S10000x10.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S10x128_S10000x10_1_1_0_0_n_n : DotDims S10000x128 S10x128 S10000x10 where
  lhsContracting := [1]
  rhsContracting := [1]
  lhsNonContracting := [0]
  rhsNonContracting := [0]
  lhsBatch := []
  rhsBatch := []
  wf := dot_S10000x128_S10x128_S10000x10_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S10000x10.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10x128 : Shape := ⟨2, ![10, 128]⟩
abbrev S10000x128 : Shape := ⟨2, ![10000, 128]⟩
abbrev S10000x10000 : Shape := ⟨2, ![10000, 10000]⟩
abbrev S1x128 : Shape := ⟨2, ![1, 128]⟩
abbrev S128x10 : Shape := ⟨2, ![128, 10]⟩
abbrev S10000x10 : Shape := ⟨2, ![10000, 10]⟩
abbrev S_ : Shape := ⟨0, ![]⟩
abbrev S10000 : Shape := ⟨1, ![10000]⟩
abbrev S10000x1 : Shape := ⟨2, ![10000, 1]⟩
abbrev S10 : Shape := ⟨1, ![10]⟩
abbrev S10x1 : Shape := ⟨2, ![10, 1]⟩
abbrev S1x10 : Shape := ⟨2, ![1, 10]⟩

abbrev nBuf : Space → Nat
  | .hbm => 49
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10x128, .f32⟩
  | .hbm, ⟨6, _⟩ => ⟨S10000x128, .f32⟩
  | .hbm, ⟨7, _⟩ => ⟨S10000x10000, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S128x10, .f32⟩
  | .hbm, ⟨16, _⟩ => ⟨S10000x10, .f32⟩
  | .hbm, ⟨17, _⟩ => ⟨S10000x128, .f32⟩
  | .hbm, ⟨18, _⟩ => ⟨S_, .f32⟩
  | .hbm, ⟨19, _⟩ => ⟨S10000, .f32⟩
  | .hbm, ⟨20, _⟩ => ⟨S10000x1, .f32⟩
  | .hbm, ⟨21, _⟩ => ⟨S10000x1, .f32⟩
  | .hbm, ⟨22, _⟩ => ⟨S10x128, .f32⟩
  | .hbm, ⟨23, _⟩ => ⟨S_, .f32⟩
  | .hbm, ⟨24, _⟩ => ⟨S10, .f32⟩
  | .hbm, ⟨25, _⟩ => ⟨S10x1, .f32⟩
  | .hbm, ⟨26, _⟩ => ⟨S10x1, .f32⟩
  | .hbm, ⟨27, _⟩ => ⟨S1x10, .f32⟩
  | .hbm, ⟨28, _⟩ => ⟨S10000x10, .f32⟩
  | .hbm, ⟨29, _⟩ => ⟨S10000x10, .f32⟩
  | .hbm, ⟨30, _⟩ => ⟨S10000x10, .f32⟩
  | .hbm, ⟨31, _⟩ => ⟨S_, .f32⟩
  | .hbm, ⟨32, _⟩ => ⟨S10000x10, .f32⟩
  | .hbm, ⟨33, _⟩ => ⟨S10000x10, .f32⟩
  | .hbm, ⟨34, _⟩ => ⟨S10000x10, .f32⟩
  | .hbm, ⟨35, _⟩ => ⟨S_, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x10, .f32⟩
  | .hbm, ⟨42, _⟩ => ⟨S10000x10, .f32⟩
  | .hbm, ⟨43, _⟩ => ⟨S10000x10, .f32⟩
  | .hbm, ⟨44, _⟩ => ⟨S_, .f32⟩
  | .hbm, ⟨45, _⟩ => ⟨S10000, .f32⟩
  | .hbm, ⟨46, _⟩ => ⟨S10000x1, .f32⟩
  | .hbm, ⟨47, _⟩ => ⟨S10000x10, .f32⟩
  | .hbm, ⟨48, _⟩ => ⟨S10000x10, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  shapeCasts_S1x10000x128_S10000x128 : S1x10000x128.ShapeCasts S10000x128
  shapeCasts_S1x10000x10000_S10000x10000 : S1x10000x10000.ShapeCasts S10000x10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10x128_S128x10_1_0 : S10x128.Transposes [1, 0] S128x10
  reducesTo_S10000x128_S10000_d1 : S10000x128.ReducesTo [1] S10000
  h_S_ : 0 < S_.numel
  bcast_S10000_S10000x1_0 : S10000.BroadcastsInDim S10000x1 (![0] : Fin 1 → Fin S10000x1.rank)
  reducesTo_S10x128_S10_d1 : S10x128.ReducesTo [1] S10
  bcast_S10_S10x1_0 : S10.BroadcastsInDim S10x1 (![0] : Fin 1 → Fin S10x1.rank)
  transposes_S10x1_S1x10_1_0 : S10x1.Transposes [1, 0] S1x10
  bcast_S10000x1_S10000x10_0_1 : S10000x1.BroadcastsInDim S10000x10 (![0, 1] : Fin 2 → Fin S10000x10.rank)
  bcast_S1x10_S10000x10_0_1 : S1x10.BroadcastsInDim S10000x10 (![0, 1] : Fin 2 → Fin S10000x10.rank)
  bcast_S_S10000x10 : S_.BroadcastsInDim S10000x10 (![] : Fin 0 → Fin S10000x10.rank)
  reducesTo_S10000x10_S10000_d1 : S10000x10.ReducesTo [1] S10000
  bcast_S_S10000 : S_.BroadcastsInDim S10000 (![] : Fin 0 → Fin S10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.BodyBits.lean ====
import proofs.«103178_g55181739819284_cont_9to1_m_1118_2_alg».proof.Proof.Gen.Kernel.Launch
import proofs.«103178_g55181739819284_cont_9to1_m_1118_2_alg».proof.Proof.Gen.Kernel.Skeleton
import proofs.«103178_g55181739819284_cont_9to1_m_1118_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The kernel body, run once per case of its guard

The body has one guard, on the grid coordinate being zero.  Every load and every store goes through the whole of a
staging buffer (the unit rectangle at offset zero), so a load reads the buffer's contents and one store leaves its
payload; each run below therefore ends with every buffer at one named payload of the blocks the body was handed. -/

/-- The offset vector of every load and store of the body is zero. -/
theorem hz2 : (![0, 0] : Fin 2 → Nat) = fun _ => 0 := by funext a; fin_cases a <;> rfl

set_option maxHeartbeats 1000000 in
/-- At the first grid point the guarded prelude runs: it computes the embedding `z = x·W₁ + b`, stores `z·W₂` whole
    into the scratch buffer, stores the row softmax of the cosine similarities whole into the second output's buffer;
    then the common tail multiplies the adjacency block by the scratch it has just written and stores the hyperbolic
    tangent whole into the first output's buffer. -/
theorem run_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 (k0_pay3 x0 x2 x3 x4)) ∗ owns (c : Thread nD τ) arg8 fullShare (k0_pay4 x0 x2 x3 x5) ∗ owns (c : Thread nD τ) arg9 fullShare (k0_pay3 x0 x2 x3 x4)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      refine (View.read_writes_eq_canon _ _ _ ?_).trans ?_
      · intro y; exact ⟨_, List.mem_singleton_self _, View.mem_set_unit_zero (S := S400x128) hz2 Facts₀.inb_S400x128_S400x128_0_0 y⟩
      · rw [View.canon_unit_zero hz2]
        simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2]
    isplitl [H7]
    · iexists _; isplitr; swap; · iexact H7
      ipureintro
      sl_unfold_words
      refine (View.read_writes_eq_canon _ _ _ ?_).trans ?_
      · intro y; exact ⟨_, List.mem_singleton_self _, View.mem_set_unit_zero (S := S10000x10) hz2 Facts₀.inb_S10000x10_S10000x10_0_0 y⟩
      · rw [View.canon_unit_zero hz2]
        simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2]
    iexists _; isplitr; swap; · iexact HS0
    ipureintro
    sl_unfold_words
    refine (View.read_writes_eq_canon _ _ _ ?_).trans ?_
    · intro y; exact ⟨_, List.mem_singleton_self _, View.mem_set_unit_zero (S := S10000x128) hz2 Facts₀.inb_S10000x128_S10000x128_0_0 y⟩
    · rw [View.canon_unit_zero hz2]
      simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2]

set_option maxHeartbeats 1000000 in
/-- At every later grid point the guard fails: the body only multiplies the adjacency block by what the scratch
    holds and stores the hyperbolic tangent whole into the first output's buffer; the second output's buffer and
    the scratch are left as they were found. -/
theorem run_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : ¬ k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) (y7 : Vec F S10000x10 .f32) (xs0 : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 xs0) ∗ owns (c : Thread nD τ) arg8 fullShare y7 ∗ owns (c : Thread nD τ) arg9 fullShare xs0) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      refine (View.read_writes_eq_canon _ _ _ ?_).trans ?_
      · intro y; exact ⟨_, List.mem_singleton_self _, View.mem_set_unit_zero (S := S400x128) hz2 Facts₀.inb_S400x128_S400x128_0_0 y⟩
      · rw [View.canon_unit_zero hz2]
        simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2, harg9.read_unread]
    isplitl [H7]
    · iexists _; isplitr; · ipureintro; exact harg8.read_unread _
      iexact H7
    iexists _; isplitr; · ipureintro; exact harg9.read_unread _
    iexact HS0

end Cert.Kernel.Hand

end
-- ==== Proof.DataBits.lean ====
import proofs.«103178_g55181739819284_cont_9to1_m_1118_2_alg».proof.Proof.Gen.Kernel.Frame
import proofs.«103178_g55181739819284_cont_9to1_m_1118_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline's buffers hold, point by point

The grid has 25 points, one per block of 400 rows of the adjacency matrix.  The first point alone computes the
embedding, the product kept in scratch, and the similarity softmax; every point multiplies its adjacency block by the
scratch.  The inputs other than the adjacency matrix are staged whole and never change, so everything the first
point computes is a function of the blocks seen at the first point. -/

/-- The first grid point. -/
def t0 : Fin cfg0.N := ⟨0, by decide⟩

theorem t0_val : (t0 : Fin cfg0.N).val = 0 := rfl

/-- The product `(x·W₁ + b)·W₂` the first point stores into the scratch buffer, from the blocks it loads. -/
def supp (c : Dev nD) : Vec F S10000x128 .f32 :=
  k0_pay3 (iblk m c 0 t0) (iblk m c 2 t0) (iblk m c 3 t0) (iblk m c 4 t0)

/-- The row softmax of the cosine similarities the first point stores into the second output's buffer. -/
def simv (c : Dev nD) : Vec F S10000x10 .f32 :=
  k0_pay4 (iblk m c 0 t0) (iblk m c 2 t0) (iblk m c 3 t0) (iblk m c 5 t0)

/-- What point `t` stores into the first output's buffer: `tanh` of its adjacency block times the scratch. -/
def h1blk (c : Dev nD) (t : Fin cfg0.N) : Vec F S400x128 .f32 :=
  k0_pay1 (iblk m c 1 t) (supp m c)

/-- The scratch operand as a memref. -/
abbrev scM : Memref sig .tc .vmem S10000x128 .f32 := Memref.whole cc0_scratch0

/-- The region invariant before position `n`: before the first point the scratch holds anything; afterwards it holds
    the product the first point stored, which no later point overwrites. -/
def PhiS (c : Dev nD) : ℕ → sProp 𝕄
  | 0 => Pipeline.ΦA spec0 c
  | _ + 1 => iprop(iprop(owns (c : Thread nD τ) scM fullShare (supp m c)) ∗ (∃ r, prngReg c r))

theorem PhiS_zero (c : Dev nD) : PhiS m c 0 = Pipeline.ΦA spec0 c := rfl

theorem PhiS_succ (c : Dev nD) (n : ℕ) :
    PhiS m c (n + 1) = iprop(iprop(owns (c : Thread nD τ) scM fullShare (supp m c)) ∗ (∃ r, prngReg c r)) := rfl

theorem PhiS_pos (c : Dev nD) (n : ℕ) (hn : n ≠ 0) :
    PhiS m c n = iprop(iprop(owns (c : Thread nD τ) scM fullShare (supp m c)) ∗ (∃ r, prngReg c r)) := by
  cases n with
  | zero => exact absurd rfl hn
  | succ n => rfl

/-- The proof data of the pipeline on core `c`: the arrays as the region finds them; after the body at point `t`
    each input's buffer still at its block, the first output's buffer at that point's block of the result, the
    second output's buffer at the softmax the first point stored (kept untouched by the later points and written
    back once, at the last); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => h1blk m c t
    | ⟨7, _⟩ => simv m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = h1blk m c t := by dsimp only [dats]
theorem after0_7 (c : Dev nD) (t : Fin cfg0.N) : (dats m 0 c).after 7 t = simv m c := by dsimp only [dats]

theorem Phi_eq (c : Dev nD) (t : Fin (cfg0.N + 1)) : (dats m 0 c).Φ t = PhiS m c t.val := by dsimp only [dats]

end Cert.Kernel.Hand

end
-- ==== Proof.FrameBits.lean ====
import proofs.«103178_g55181739819284_cont_9to1_m_1118_2_alg».proof.Proof.BodyBits
import proofs.«103178_g55181739819284_cont_9to1_m_1118_2_alg».proof.Proof.DataBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's run

The guard of the body holds at the first of the 25 grid points only.  The six inputs are never idle; the first
output is stored at every point and written back at every point; the second output is stored at the first point
only, idle afterwards, and written back once, after the last point — its buffer then still holds what the first
point stored, because no later point touches it.  The scratch buffer is written at the first point and only read
afterwards. -/

/-- The guard holds at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
/-- The second output is live at the first point, -/
theorem liveAt7_first : ∀ t : Fin cfg0.N, t.val = 0 → cfg0.idle 7 (grid0.coords t) = false := by decide +kernel
/-- idle at every later point, -/
theorem idleAt7_later : ∀ t : Fin cfg0.N, t.val ≠ 0 → cfg0.idle 7 (grid0.coords t) = true := by decide +kernel
/-- and written back at the last point only. -/
theorem flush7_iff : ∀ t : Fin cfg0.N, (cfg0.win 7).flush t = true ↔ t.val = 24 :=
  (by decide +kernel : ∀ t : Fin grid0.N, win0_7.flush t = true ↔ t.val = 24)

/-- Each window's current staging memref at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S10000x10 .f32 := win0_7.stage (cfg0.slots t 7)
abbrev hs7 (t : Fin cfg0.N) : (ms7 t).IsWhole := hstage0_7 ((cfg0.slots t 7).cast nbuf0_7)

/-- The class's region invariant with the scratch operand as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiS_of_zero (c : Dev nD) (n : ℕ) (hz : n = 0) : PhiS m c n = Pipeline.ΦA spec0 c := by
  subst hz; rfl

/-- Each input's current staging buffer holds its block at every point, fetched there or not. -/
theorem before0 (c : Dev nD) (t : Fin cfg0.N) (d) : (dats m 0 c).before 0 t d = iblk m c 0 t :=
  before0_0_of m (dats m 0 c) (A_eq m c 0) (after0_0 m c) t d
theorem before1 (c : Dev nD) (t : Fin cfg0.N) (d) : (dats m 0 c).before 1 t d = iblk m c 1 t :=
  before0_1_of m (dats m 0 c) (A_eq m c 1) (after0_1 m c) t d
theorem before2 (c : Dev nD) (t : Fin cfg0.N) (d) : (dats m 0 c).before 2 t d = iblk m c 2 t :=
  before0_2_of m (dats m 0 c) (A_eq m c 2) (after0_2 m c) t d
theorem before3 (c : Dev nD) (t : Fin cfg0.N) (d) : (dats m 0 c).before 3 t d = iblk m c 3 t :=
  before0_3_of m (dats m 0 c) (A_eq m c 3) (after0_3 m c) t d
theorem before4 (c : Dev nD) (t : Fin cfg0.N) (d) : (dats m 0 c).before 4 t d = iblk m c 4 t :=
  before0_4_of m (dats m 0 c) (A_eq m c 4) (after0_4 m c) t d
theorem before5 (c : Dev nD) (t : Fin cfg0.N) (d) : (dats m 0 c).before 5 t d = iblk m c 5 t :=
  before0_5_of m (dats m 0 c) (A_eq m c 5) (after0_5 m c) t d

/-- What the second output's buffer holds as a later point leaves it for the next: the first point's softmax,
    whether that point is the first (it stored it) or a later one (it found it and left it). -/
theorem left7 (c : Dev nD) (t' : Fin cfg0.N) (d)
    (ih : t'.val ≠ 0 → (dats m 0 c).before 7 t' d = simv m c) : (dats m 0 c).left 7 t' d = simv m c := by
  unfold Dat.left
  by_cases h : t'.val = 0
  · rw [liveAt7_first t' h]
    dsimp only
    unfold Dat.kept
    rw [Pipeline.fill_of_clip_none (cfg := cfg0) 7 _ (fun _ => rfl) d ((dats m 0 c).after 7 t'), Window.fill_cut, after0_7]
  · rw [idleAt7_later t' h]
    dsimp only
    exact ih h

/-- At every point after the first the second output's buffer holds the first point's softmax. -/
theorem before7 (c : Dev nD) (d) : ∀ (n : ℕ) (hn : n < cfg0.N), n ≠ 0 → (dats m 0 c).before 7 ⟨n, hn⟩ d = simv m c := by
  intro n
  induction n with
  | zero => intro _ h; exact absurd rfl h
  | succ k ih =>
    intro hn _
    rw [(dats m 0 c).before_of_pos 7 ⟨k + 1, hn⟩ (Nat.succ_ne_zero k) ((cfg0.win 7).fetch_out rfl _)]
    have hN : k + 1 < 25 := lt_of_lt_of_eq hn (show cfg0.N = 25 from N_0)
    have hfl : (cfg0.win 7).flush ⟨k + 1 - 1, Nat.lt_of_le_of_lt (Nat.sub_le _ _) hn⟩ = false := by
      cases hf : (cfg0.win 7).flush ⟨k + 1 - 1, Nat.lt_of_le_of_lt (Nat.sub_le _ _) hn⟩
      · rfl
      · have h24 : k + 1 - 1 = 24 := (flush7_iff _).mp hf
        omega
    rw [hfl, if_neg Bool.false_ne_true]
    exact left7 m c ⟨k + 1 - 1, Nat.lt_of_le_of_lt (Nat.sub_le _ _) hn⟩ d (fun h => ih _ h)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point.  The inputs' buffers hold their blocks.  At the first point the invariant hands the
    scratch at anything and both outputs' buffers hold anything; the first-point run leaves the scratch at the
    stored product, the second output's buffer at the softmax and the first output's at its block.  At a later
    point the scratch holds the stored product and the second output's buffer the softmax; the later-point run
    leaves both as found and the first output's buffer at its block; at the last point what the second output's
    buffer holds is what is written back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_eq m c t.succ, Phi_eq m c t.castSucc, Fin.val_succ, Fin.coe_castSucc, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  rw [show (dats m 0 c).leavesExact 4 t = owns (c : Thread nD τ) (ms4 t) fullShare ((dats m 0 c).after 4 t) from by
    unfold Dat.leavesExact; rw [liveAt4 t], after0_4]
  rw [show (dats m 0 c).leavesExact 5 t = owns (c : Thread nD τ) (ms5 t) fullShare ((dats m 0 c).after 5 t) from by
    unfold Dat.leavesExact; rw [liveAt5 t], after0_5]
  rw [show (dats m 0 c).leavesExact 6 t = owns (c : Thread nD τ) (ms6 t) fullShare ((dats m 0 c).after 6 t) from by
    unfold Dat.leavesExact; rw [liveAt6 t], after0_6]
  unfold h1blk
  have hN : t.val < 25 := lt_of_lt_of_eq t.isLt (show cfg0.N = 25 from N_0)
  by_cases h0 : t.val = 0
  · -- the first point
    rw [show (dats m 0 c).leavesExact 7 t = owns (c : Thread nD τ) (ms7 t) fullShare ((dats m 0 c).after 7 t) from by
      unfold Dat.leavesExact; rw [liveAt7_first t h0], after0_7]
    rw [PhiS_of_zero m c _ h0, PhiA_eq]
    obtain rfl : t = t0 := Fin.ext h0
    unfold simv supp
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_first c (grid0.coords t0) _ _ _ _ _ _ _ _ _ _ _ _ _ _ _ _ _ _ ((hcond t0).mpr h0) (iblk m c 0 t0) (iblk m c 1 t0) (iblk m c 2 t0) (iblk m c 3 t0) (iblk m c 4 t0) (iblk m c 5 t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point
    rw [PhiS_pos m c _ h0]
    have hb7 : ∀ d, (dats m 0 c).before 7 t d = simv m c := fun d => before7 m c d t.val t.isLt h0
    simp only [hb7]
    by_cases hl : t.val = 24
    · -- the last point: the softmax found there is what is written back
      rw [show (dats m 0 c).leavesExact 7 t = owns (c : Thread nD τ) (ms7 t) fullShare ((dats m 0 c).after 7 t) from by
        unfold Dat.leavesExact; rw [idleAt7_later t h0, (flush7_iff t).mpr hl], after0_7]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_later c (grid0.coords t) _ _ _ _ _ _ _ _ _ _ _ _ _ _ _ _ _ _ (fun h => h0 ((hcond t).mp h)) (iblk m c 0 t) (iblk m c 1 t) (iblk m c 2 t) (iblk m c 3 t) (iblk m c 4 t) (iblk m c 5 t) (simv m c) (supp m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a point between: the buffer is handed back as found
      rw [Dat.leavesExact_idle (dats m 0 c) 7 t (idleAt7_later t h0) (by
        cases hf : (cfg0.win 7).flush t
        · rfl
        · exact absurd ((flush7_iff t).mp hf) hl)]
      simp only [hb7]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_later c (grid0.coords t) _ _ _ _ _ _ _ _ _ _ _ _ _ _ _ _ _ _ (fun h => h0 ((hcond t).mp h)) (iblk m c 0 t) (iblk m c 1 t) (iblk m c 2 t) (iblk m c 3 t) (iblk m c 4 t) (iblk m c 5 t) (simv m c) (supp m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [Phi_eq m c 0]
  exact Idealize.SL.BI.Entails.refl _

/-- After the last point the invariant gives the class's back: the scratch's contents are forgotten. -/
theorem hout (c : Dev nD) : (dats m 0 c).Φ (Fin.last cfg0.N) ⊢ Pipeline.ΦA spec0 c := by
  rw [Phi_eq m c (Fin.last cfg0.N), PhiS_pos m c _ (by rw [Fin.val_last]; have : cfg0.N = 25 := N_0; omega), PhiA_eq]
  iintro ⟨HS0, Hg⟩
  isplitl [HS0]
  · iexists _; iexact HS0
  iexact Hg

/-! ## The run and the frame -/

set_option backward.isDefEq.respectTransparency.types false in
/-- From any memory with zero counters every weakly fair execution of the program terminates, and every final state
    has every array of the pipeline at what the write-backs of the proof data leave in it and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.BodyIdeal.lean ====
import proofs.«103178_g55181739819284_cont_9to1_m_1118_2_alg».proof.Proof.Gen.KernelIdeal.Launch
import proofs.«103178_g55181739819284_cont_9to1_m_1118_2_alg».proof.Proof.Gen.KernelIdeal.Skeleton
import proofs.«103178_g55181739819284_cont_9to1_m_1118_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The kernel body, run once per case of its guard

The body has one guard, on the grid coordinate being zero.  Every load and every store goes through the whole of a
staging buffer (the unit rectangle at offset zero), so a load reads the buffer's contents and one store leaves its
payload; each run below therefore ends with every buffer at one named payload of the blocks the body was handed. -/

/-- The offset vector of every load and store of the body is zero. -/
theorem hz2 : (![0, 0] : Fin 2 → Nat) = fun _ => 0 := by funext a; fin_cases a <;> rfl

set_option maxHeartbeats 1000000 in
/-- At the first grid point the guarded prelude runs: it computes the embedding `z = x·W₁ + b`, stores `z·W₂` whole
    into the scratch buffer, stores the row softmax of the cosine similarities whole into the second output's buffer;
    then the common tail multiplies the adjacency block by the scratch it has just written and stores the hyperbolic
    tangent whole into the first output's buffer. -/
theorem run_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 (k0_pay3 x0 x2 x3 x4)) ∗ owns (c : Thread nD τ) arg8 fullShare (k0_pay4 x0 x2 x3 x5) ∗ owns (c : Thread nD τ) arg9 fullShare (k0_pay3 x0 x2 x3 x4)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      refine (View.read_writes_eq_canon _ _ _ ?_).trans ?_
      · intro y; exact ⟨_, List.mem_singleton_self _, View.mem_set_unit_zero (S := S400x128) hz2 Facts₀.inb_S400x128_S400x128_0_0 y⟩
      · rw [View.canon_unit_zero hz2]
        simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2]
    isplitl [H7]
    · iexists _; isplitr; swap; · iexact H7
      ipureintro
      sl_unfold_words
      refine (View.read_writes_eq_canon _ _ _ ?_).trans ?_
      · intro y; exact ⟨_, List.mem_singleton_self _, View.mem_set_unit_zero (S := S10000x10) hz2 Facts₀.inb_S10000x10_S10000x10_0_0 y⟩
      · rw [View.canon_unit_zero hz2]
        simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2]
    iexists _; isplitr; swap; · iexact HS0
    ipureintro
    sl_unfold_words
    refine (View.read_writes_eq_canon _ _ _ ?_).trans ?_
    · intro y; exact ⟨_, List.mem_singleton_self _, View.mem_set_unit_zero (S := S10000x128) hz2 Facts₀.inb_S10000x128_S10000x128_0_0 y⟩
    · rw [View.canon_unit_zero hz2]
      simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2]

set_option maxHeartbeats 1000000 in
/-- At every later grid point the guard fails: the body only multiplies the adjacency block by what the scratch
    holds and stores the hyperbolic tangent whole into the first output's buffer; the second output's buffer and
    the scratch are left as they were found. -/
theorem run_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : ¬ k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) (y7 : Vec F S10000x10 .f32) (xs0 : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 xs0) ∗ owns (c : Thread nD τ) arg8 fullShare y7 ∗ owns (c : Thread nD τ) arg9 fullShare xs0) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      refine (View.read_writes_eq_canon _ _ _ ?_).trans ?_
      · intro y; exact ⟨_, List.mem_singleton_self _, View.mem_set_unit_zero (S := S400x128) hz2 Facts₀.inb_S400x128_S400x128_0_0 y⟩
      · rw [View.canon_unit_zero hz2]
        simp only [View.readAt_eq_ld, harg1.read_unread, harg2.read_unread, harg3.read_unread, harg4.read_unread, harg5.read_unread, harg6.read_unread, View.ld_unit_zero (S := S10000x128) hz2, View.ld_unit_zero (S := S400x10000) hz2, View.ld_unit_zero (S := S128x128) hz2, View.ld_unit_zero (S := S1x128) hz2, View.ld_unit_zero (S := S10x128) hz2, View.readCov_unit_zero (S := S10000x128) _ hz2, harg9.read_unread]
    isplitl [H7]
    · iexists _; isplitr; · ipureintro; exact harg8.read_unread _
      iexact H7
    iexists _; isplitr; · ipureintro; exact harg9.read_unread _
    iexact HS0

end Cert.KernelIdeal.Hand

end
-- ==== Proof.DataIdeal.lean ====
import proofs.«103178_g55181739819284_cont_9to1_m_1118_2_alg».proof.Proof.Gen.KernelIdeal.Frame
import proofs.«103178_g55181739819284_cont_9to1_m_1118_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline's buffers hold, point by point

The grid has 25 points, one per block of 400 rows of the adjacency matrix.  The first point alone computes the
embedding, the product kept in scratch, and the similarity softmax; every point multiplies its adjacency block by the
scratch.  The inputs other than the adjacency matrix are staged whole and never change, so everything the first
point computes is a function of the blocks seen at the first point. -/

/-- The first grid point. -/
def t0 : Fin cfg0.N := ⟨0, by decide⟩

theorem t0_val : (t0 : Fin cfg0.N).val = 0 := rfl

/-- The product `(x·W₁ + b)·W₂` the first point stores into the scratch buffer, from the blocks it loads. -/
def supp (c : Dev nD) : Vec F S10000x128 .f32 :=
  k0_pay3 (iblk m c 0 t0) (iblk m c 2 t0) (iblk m c 3 t0) (iblk m c 4 t0)

/-- The row softmax of the cosine similarities the first point stores into the second output's buffer. -/
def simv (c : Dev nD) : Vec F S10000x10 .f32 :=
  k0_pay4 (iblk m c 0 t0) (iblk m c 2 t0) (iblk m c 3 t0) (iblk m c 5 t0)

/-- What point `t` stores into the first output's buffer: `tanh` of its adjacency block times the scratch. -/
def h1blk (c : Dev nD) (t : Fin cfg0.N) : Vec F S400x128 .f32 :=
  k0_pay1 (iblk m c 1 t) (supp m c)

/-- The scratch operand as a memref. -/
abbrev scM : Memref sig .tc .vmem S10000x128 .f32 := Memref.whole cc0_scratch0

/-- The region invariant before position `n`: before the first point the scratch holds anything; afterwards it holds
    the product the first point stored, which no later point overwrites. -/
def PhiS (c : Dev nD) : ℕ → sProp 𝕄
  | 0 => Pipeline.ΦA spec0 c
  | _ + 1 => iprop(iprop(owns (c : Thread nD τ) scM fullShare (supp m c)) ∗ (∃ r, prngReg c r))

theorem PhiS_zero (c : Dev nD) : PhiS m c 0 = Pipeline.ΦA spec0 c := rfl

theorem PhiS_succ (c : Dev nD) (n : ℕ) :
    PhiS m c (n + 1) = iprop(iprop(owns (c : Thread nD τ) scM fullShare (supp m c)) ∗ (∃ r, prngReg c r)) := rfl

theorem PhiS_pos (c : Dev nD) (n : ℕ) (hn : n ≠ 0) :
    PhiS m c n = iprop(iprop(owns (c : Thread nD τ) scM fullShare (supp m c)) ∗ (∃ r, prngReg c r)) := by
  cases n with
  | zero => exact absurd rfl hn
  | succ n => rfl

/-- The proof data of the pipeline on core `c`: the arrays as the region finds them; after the body at point `t`
    each input's buffer still at its block, the first output's buffer at that point's block of the result, the
    second output's buffer at the softmax the first point stored (kept untouched by the later points and written
    back once, at the last); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => h1blk m c t
    | ⟨7, _⟩ => simv m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = h1blk m c t := by dsimp only [dats]
theorem after0_7 (c : Dev nD) (t : Fin cfg0.N) : (dats m 0 c).after 7 t = simv m c := by dsimp only [dats]

theorem Phi_eq (c : Dev nD) (t : Fin (cfg0.N + 1)) : (dats m 0 c).Φ t = PhiS m c t.val := by dsimp only [dats]

end Cert.KernelIdeal.Hand

end
-- ==== Proof.FrameIdeal.lean ====
import proofs.«103178_g55181739819284_cont_9to1_m_1118_2_alg».proof.Proof.BodyIdeal
import proofs.«103178_g55181739819284_cont_9to1_m_1118_2_alg».proof.Proof.DataIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's run

The guard of the body holds at the first of the 25 grid points only.  The six inputs are never idle; the first
output is stored at every point and written back at every point; the second output is stored at the first point
only, idle afterwards, and written back once, after the last point — its buffer then still holds what the first
point stored, because no later point touches it.  The scratch buffer is written at the first point and only read
afterwards. -/

/-- The guard holds at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
/-- The second output is live at the first point, -/
theorem liveAt7_first : ∀ t : Fin cfg0.N, t.val = 0 → cfg0.idle 7 (grid0.coords t) = false := by decide +kernel
/-- idle at every later point, -/
theorem idleAt7_later : ∀ t : Fin cfg0.N, t.val ≠ 0 → cfg0.idle 7 (grid0.coords t) = true := by decide +kernel
/-- and written back at the last point only. -/
theorem flush7_iff : ∀ t : Fin cfg0.N, (cfg0.win 7).flush t = true ↔ t.val = 24 :=
  (by decide +kernel : ∀ t : Fin grid0.N, win0_7.flush t = true ↔ t.val = 24)

/-- Each window's current staging memref at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S10000x10 .f32 := win0_7.stage (cfg0.slots t 7)
abbrev hs7 (t : Fin cfg0.N) : (ms7 t).IsWhole := hstage0_7 ((cfg0.slots t 7).cast nbuf0_7)

/-- The class's region invariant with the scratch operand as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiS_of_zero (c : Dev nD) (n : ℕ) (hz : n = 0) : PhiS m c n = Pipeline.ΦA spec0 c := by
  subst hz; rfl

/-- Each input's current staging buffer holds its block at every point, fetched there or not. -/
theorem before0 (c : Dev nD) (t : Fin cfg0.N) (d) : (dats m 0 c).before 0 t d = iblk m c 0 t :=
  before0_0_of m (dats m 0 c) (A_eq m c 0) (after0_0 m c) t d
theorem before1 (c : Dev nD) (t : Fin cfg0.N) (d) : (dats m 0 c).before 1 t d = iblk m c 1 t :=
  before0_1_of m (dats m 0 c) (A_eq m c 1) (after0_1 m c) t d
theorem before2 (c : Dev nD) (t : Fin cfg0.N) (d) : (dats m 0 c).before 2 t d = iblk m c 2 t :=
  before0_2_of m (dats m 0 c) (A_eq m c 2) (after0_2 m c) t d
theorem before3 (c : Dev nD) (t : Fin cfg0.N) (d) : (dats m 0 c).before 3 t d = iblk m c 3 t :=
  before0_3_of m (dats m 0 c) (A_eq m c 3) (after0_3 m c) t d
theorem before4 (c : Dev nD) (t : Fin cfg0.N) (d) : (dats m 0 c).before 4 t d = iblk m c 4 t :=
  before0_4_of m (dats m 0 c) (A_eq m c 4) (after0_4 m c) t d
theorem before5 (c : Dev nD) (t : Fin cfg0.N) (d) : (dats m 0 c).before 5 t d = iblk m c 5 t :=
  before0_5_of m (dats m 0 c) (A_eq m c 5) (after0_5 m c) t d

/-- What the second output's buffer holds as a later point leaves it for the next: the first point's softmax,
    whether that point is the first (it stored it) or a later one (it found it and left it). -/
theorem left7 (c : Dev nD) (t' : Fin cfg0.N) (d)
    (ih : t'.val ≠ 0 → (dats m 0 c).before 7 t' d = simv m c) : (dats m 0 c).left 7 t' d = simv m c := by
  unfold Dat.left
  by_cases h : t'.val = 0
  · rw [liveAt7_first t' h]
    dsimp only
    unfold Dat.kept
    rw [Pipeline.fill_of_clip_none (cfg := cfg0) 7 _ (fun _ => rfl) d ((dats m 0 c).after 7 t'), Window.fill_cut, after0_7]
  · rw [idleAt7_later t' h]
    dsimp only
    exact ih h

/-- At every point after the first the second output's buffer holds the first point's softmax. -/
theorem before7 (c : Dev nD) (d) : ∀ (n : ℕ) (hn : n < cfg0.N), n ≠ 0 → (dats m 0 c).before 7 ⟨n, hn⟩ d = simv m c := by
  intro n
  induction n with
  | zero => intro _ h; exact absurd rfl h
  | succ k ih =>
    intro hn _
    rw [(dats m 0 c).before_of_pos 7 ⟨k + 1, hn⟩ (Nat.succ_ne_zero k) ((cfg0.win 7).fetch_out rfl _)]
    have hN : k + 1 < 25 := lt_of_lt_of_eq hn (show cfg0.N = 25 from N_0)
    have hfl : (cfg0.win 7).flush ⟨k + 1 - 1, Nat.lt_of_le_of_lt (Nat.sub_le _ _) hn⟩ = false := by
      cases hf : (cfg0.win 7).flush ⟨k + 1 - 1, Nat.lt_of_le_of_lt (Nat.sub_le _ _) hn⟩
      · rfl
      · have h24 : k + 1 - 1 = 24 := (flush7_iff _).mp hf
        omega
    rw [hfl, if_neg Bool.false_ne_true]
    exact left7 m c ⟨k + 1 - 1, Nat.lt_of_le_of_lt (Nat.sub_le _ _) hn⟩ d (fun h => ih _ h)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point.  The inputs' buffers hold their blocks.  At the first point the invariant hands the
    scratch at anything and both outputs' buffers hold anything; the first-point run leaves the scratch at the
    stored product, the second output's buffer at the softmax and the first output's at its block.  At a later
    point the scratch holds the stored product and the second output's buffer the softmax; the later-point run
    leaves both as found and the first output's buffer at its block; at the last point what the second output's
    buffer holds is what is written back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_eq m c t.succ, Phi_eq m c t.castSucc, Fin.val_succ, Fin.coe_castSucc, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  rw [show (dats m 0 c).leavesExact 4 t = owns (c : Thread nD τ) (ms4 t) fullShare ((dats m 0 c).after 4 t) from by
    unfold Dat.leavesExact; rw [liveAt4 t], after0_4]
  rw [show (dats m 0 c).leavesExact 5 t = owns (c : Thread nD τ) (ms5 t) fullShare ((dats m 0 c).after 5 t) from by
    unfold Dat.leavesExact; rw [liveAt5 t], after0_5]
  rw [show (dats m 0 c).leavesExact 6 t = owns (c : Thread nD τ) (ms6 t) fullShare ((dats m 0 c).after 6 t) from by
    unfold Dat.leavesExact; rw [liveAt6 t], after0_6]
  unfold h1blk
  have hN : t.val < 25 := lt_of_lt_of_eq t.isLt (show cfg0.N = 25 from N_0)
  by_cases h0 : t.val = 0
  · -- the first point
    rw [show (dats m 0 c).leavesExact 7 t = owns (c : Thread nD τ) (ms7 t) fullShare ((dats m 0 c).after 7 t) from by
      unfold Dat.leavesExact; rw [liveAt7_first t h0], after0_7]
    rw [PhiS_of_zero m c _ h0, PhiA_eq]
    obtain rfl : t = t0 := Fin.ext h0
    unfold simv supp
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_first c (grid0.coords t0) _ _ _ _ _ _ _ _ _ _ _ _ _ _ _ _ _ _ ((hcond t0).mpr h0) (iblk m c 0 t0) (iblk m c 1 t0) (iblk m c 2 t0) (iblk m c 3 t0) (iblk m c 4 t0) (iblk m c 5 t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point
    rw [PhiS_pos m c _ h0]
    have hb7 : ∀ d, (dats m 0 c).before 7 t d = simv m c := fun d => before7 m c d t.val t.isLt h0
    simp only [hb7]
    by_cases hl : t.val = 24
    · -- the last point: the softmax found there is what is written back
      rw [show (dats m 0 c).leavesExact 7 t = owns (c : Thread nD τ) (ms7 t) fullShare ((dats m 0 c).after 7 t) from by
        unfold Dat.leavesExact; rw [idleAt7_later t h0, (flush7_iff t).mpr hl], after0_7]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_later c (grid0.coords t) _ _ _ _ _ _ _ _ _ _ _ _ _ _ _ _ _ _ (fun h => h0 ((hcond t).mp h)) (iblk m c 0 t) (iblk m c 1 t) (iblk m c 2 t) (iblk m c 3 t) (iblk m c 4 t) (iblk m c 5 t) (simv m c) (supp m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a point between: the buffer is handed back as found
      rw [Dat.leavesExact_idle (dats m 0 c) 7 t (idleAt7_later t h0) (by
        cases hf : (cfg0.win 7).flush t
        · rfl
        · exact absurd ((flush7_iff t).mp hf) hl)]
      simp only [hb7]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_later c (grid0.coords t) _ _ _ _ _ _ _ _ _ _ _ _ _ _ _ _ _ _ (fun h => h0 ((hcond t).mp h)) (iblk m c 0 t) (iblk m c 1 t) (iblk m c 2 t) (iblk m c 3 t) (iblk m c 4 t) (iblk m c 5 t) (simv m c) (supp m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [Phi_eq m c 0]
  exact Idealize.SL.BI.Entails.refl _

/-- After the last point the invariant gives the class's back: the scratch's contents are forgotten. -/
theorem hout (c : Dev nD) : (dats m 0 c).Φ (Fin.last cfg0.N) ⊢ Pipeline.ΦA spec0 c := by
  rw [Phi_eq m c (Fin.last cfg0.N), PhiS_pos m c _ (by rw [Fin.val_last]; have : cfg0.N = 25 := N_0; omega), PhiA_eq]
  iintro ⟨HS0, Hg⟩
  isplitl [HS0]
  · iexists _; iexact HS0
  iexact Hg

/-! ## The run and the frame -/

set_option backward.isDefEq.respectTransparency.types false in
/-- From any memory with zero counters every weakly fair execution of the program terminates, and every final state
    has every array of the pipeline at what the write-backs of the proof data leave in it and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.ArraysIdeal.lean ====
import proofs.«103178_g55181739819284_cont_9to1_m_1118_2_alg».proof.Proof.DataIdeal
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## From the staging buffers to the arrays

The windows staged whole have one block, the whole array; the adjacency window's block at point `t` is rows
`400·t … 400·t + 399`; the first output's blocks tile its array by the same rows, and the second output's one block,
the whole array, is written back once. -/

/-- Row `p` of block `t` is row `400·t + p` of the array. -/
def rowOf (t : Fin cfg0.N) (p : Fin 400) : Fin 10000 :=
  ⟨400 * t.val + p.val, by have := t.isLt; have h25 : cfg0.N = 25 := N_0; have := p.isLt; omega⟩

theorem rowOf_val (t : Fin cfg0.N) (p : Fin 400) : (rowOf t p).val = 400 * t.val + p.val := rfl

/-! ### The block index of each window at each point, decided over the 25 points -/

/-- The windows staged whole sit at block index `(0, 0)` at every point. -/
private theorem index_whole : ∀ t : Fin cfg0.N,
    (win0_0.index t (0 : Fin 2) = 0 ∧ win0_0.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0) :=
  (by decide +kernel : ∀ t : Fin grid0.N, _)

/-- The adjacency window and the first output's window sit at block index `(t, 0)` at point `t`. -/
private theorem index_rows : ∀ t : Fin cfg0.N,
    (win0_1.index t (0 : Fin 2) = t.val ∧ win0_1.index t (1 : Fin 2) = 0)
    ∧ (win0_6.index t (0 : Fin 2) = t.val ∧ win0_6.index t (1 : Fin 2) = 0) :=
  (by decide +kernel : ∀ t : Fin grid0.N, _)

/-! ### The arrays the host reshapes write -/

/-- The arrays the host reshapes write before the region, as terms of the arguments. -/
theorem V_main_v0 (c : Dev nD) :
    (V m c main_v0 : S10000x128.Idx → Elt F .f32)
      = shapeCast S10000x128 (m ((c : Thread nD τ).loc main_arg0)) Facts₀.shapeCasts_S1x10000x128_S10000x128 := by
  dsimp only [Gen.V, Gen.hostOps0]; after_results; rfl
theorem V_main_v1 (c : Dev nD) :
    (V m c main_v1 : S10000x10000.Idx → Elt F .f32)
      = shapeCast S10000x10000 (m ((c : Thread nD τ).loc main_arg1)) Facts₀.shapeCasts_S1x10000x10000_S10000x10000 := by
  dsimp only [Gen.V, Gen.hostOps0]; after_results; rfl
theorem V_main_v2 (c : Dev nD) :
    (V m c main_v2 : S1x128.Idx → Elt F .f32)
      = shapeCast S1x128 (m ((c : Thread nD τ).loc main_arg3)) Facts₀.shapeCasts_S128_S1x128 := by
  dsimp only [Gen.V, Gen.hostOps0]; after_results; rfl

/-! ### The windows staged whole -/

/-- The blocks of the windows staged whole are their arrays. -/
theorem iblk0_eq (c : Dev nD) : (iblk m c 0 t0 : S10000x128.Idx → Elt F .f32) = V m c main_v0 := by
  funext y
  show (V m c main_v0 : S10000x128.Idx → Elt F .f32) (((cfg0.win 0).blk t0).view.emb y) = V m c main_v0 y
  refine congrArg (V m c main_v0 : S10000x128.Idx → Elt F .f32) ?_
  obtain ⟨⟨e0, e1⟩, -⟩ := index_whole t0
  funext a; apply Fin.ext
  match a with
  | ⟨0, _⟩ => show win0_0.index t0 (0 : Fin 2) * 10000 + 1 * (y 0).val = (y 0).val; rw [e0]; omega
  | ⟨1, _⟩ => show win0_0.index t0 (1 : Fin 2) * 128 + 1 * (y 1).val = (y 1).val; rw [e1]; omega
theorem iblk2_eq (c : Dev nD) : (iblk m c 2 t0 : S128x128.Idx → Elt F .f32) = m ((c : Thread nD τ).loc main_arg2) := by
  refine Eq.trans ?_ (V_main_arg2 m c)
  funext y
  show (V m c main_arg2 : S128x128.Idx → Elt F .f32) (((cfg0.win 2).blk t0).view.emb y) = V m c main_arg2 y
  refine congrArg (V m c main_arg2 : S128x128.Idx → Elt F .f32) ?_
  obtain ⟨-, ⟨e0, e1⟩, -⟩ := index_whole t0
  funext a; apply Fin.ext
  match a with
  | ⟨0, _⟩ => show win0_2.index t0 (0 : Fin 2) * 128 + 1 * (y 0).val = (y 0).val; rw [e0]; omega
  | ⟨1, _⟩ => show win0_2.index t0 (1 : Fin 2) * 128 + 1 * (y 1).val = (y 1).val; rw [e1]; omega
theorem iblk3_eq (c : Dev nD) : (iblk m c 3 t0 : S1x128.Idx → Elt F .f32) = V m c main_v2 := by
  funext y
  show (V m c main_v2 : S1x128.Idx → Elt F .f32) (((cfg0.win 3).blk t0).view.emb y) = V m c main_v2 y
  refine congrArg (V m c main_v2 : S1x128.Idx → Elt F .f32) ?_
  obtain ⟨-, -, ⟨e0, e1⟩, -⟩ := index_whole t0
  funext a; apply Fin.ext
  match a with
  | ⟨0, _⟩ => show win0_3.index t0 (0 : Fin 2) * 1 + 1 * (y 0).val = (y 0).val; rw [e0]; omega
  | ⟨1, _⟩ => show win0_3.index t0 (1 : Fin 2) * 128 + 1 * (y 1).val = (y 1).val; rw [e1]; omega
theorem iblk4_eq (c : Dev nD) : (iblk m c 4 t0 : S128x128.Idx → Elt F .f32) = m ((c : Thread nD τ).loc main_arg4) := by
  refine Eq.trans ?_ (V_main_arg4 m c)
  funext y
  show (V m c main_arg4 : S128x128.Idx → Elt F .f32) (((cfg0.win 4).blk t0).view.emb y) = V m c main_arg4 y
  refine congrArg (V m c main_arg4 : S128x128.Idx → Elt F .f32) ?_
  obtain ⟨-, -, -, ⟨e0, e1⟩, -⟩ := index_whole t0
  funext a; apply Fin.ext
  match a with
  | ⟨0, _⟩ => show win0_4.index t0 (0 : Fin 2) * 128 + 1 * (y 0).val = (y 0).val; rw [e0]; omega
  | ⟨1, _⟩ => show win0_4.index t0 (1 : Fin 2) * 128 + 1 * (y 1).val = (y 1).val; rw [e1]; omega
theorem iblk5_eq (c : Dev nD) : (iblk m c 5 t0 : S10x128.Idx → Elt F .f32) = m ((c : Thread nD τ).loc main_arg5) := by
  refine Eq.trans ?_ (V_main_arg5 m c)
  funext y
  show (V m c main_arg5 : S10x128.Idx → Elt F .f32) (((cfg0.win 5).blk t0).view.emb y) = V m c main_arg5 y
  refine congrArg (V m c main_arg5 : S10x128.Idx → Elt F .f32) ?_
  obtain ⟨-, -, -, -, ⟨e0, e1⟩, -⟩ := index_whole t0
  funext a; apply Fin.ext
  match a with
  | ⟨0, _⟩ => show win0_5.index t0 (0 : Fin 2) * 10 + 1 * (y 0).val = (y 0).val; rw [e0]; omega
  | ⟨1, _⟩ => show win0_5.index t0 (1 : Fin 2) * 128 + 1 * (y 1).val = (y 1).val; rw [e1]; omega

/-! ### The adjacency window -/

/-- The adjacency block at point `t`, entry by entry. -/
theorem iblk1_apply (c : Dev nD) (t : Fin cfg0.N) (p : Fin 400) (q : Fin 10000) :
    (iblk m c 1 t : S400x10000.Idx → Elt F .f32) (ix2 p q) = (V m c main_v1 : S10000x10000.Idx → Elt F .f32) (ix2 (rowOf t p) q) := by
  show (V m c main_v1 : S10000x10000.Idx → Elt F .f32) (((cfg0.win 1).blk t).view.emb (ix2 p q)) = _
  refine congrArg (V m c main_v1 : S10000x10000.Idx → Elt F .f32) ?_
  obtain ⟨⟨e0, e1⟩, -⟩ := index_rows t
  funext a; apply Fin.ext
  match a with
  | ⟨0, _⟩ => show win0_1.index t (0 : Fin 2) * 400 + 1 * p.val = 400 * t.val + p.val; rw [e0]; omega
  | ⟨1, _⟩ => show win0_1.index t (1 : Fin 2) * 10000 + 1 * q.val = q.val; rw [e1]; omega

/-! ### The second result: one block, written back once -/

/-- What a write-back of the second result's window writes is the stored softmax, read through the block. -/
private theorem flushed7_eq (c : Dev nD) (t : Fin cfg0.N) :
    (dats m 0 c).flushed 7 t = ((cfg0.win 7).blk t).view.read (Elt F) (simv m c) := by
  show (cfg0.win 7).cut (grid0.coords t) ((dats m 0 c).after 7 t) = _
  rw [after0_7]
  funext y
  show (simv m c : S10000x10.Idx → Elt F .f32) y = (simv m c : S10000x10.Idx → Elt F .f32) (((cfg0.win 7).blk t).view.emb y)
  refine congrArg (simv m c : S10000x10.Idx → Elt F .f32) ?_
  obtain ⟨-, -, -, -, -, ⟨e0, e1⟩⟩ := index_whole t
  funext a; apply Fin.ext
  match a with
  | ⟨0, _⟩ => show (y 0).val = win0_7.index t (0 : Fin 2) * 10000 + 1 * (y 0).val; rw [e0]; omega
  | ⟨1, _⟩ => show (y 1).val = win0_7.index t (1 : Fin 2) * 10 + 1 * (y 1).val; rw [e1]; omega

/-- An index of the second result's array is in point `t`'s block iff each coordinate is in the block's range. -/
private theorem mem_blk7 (t : Fin cfg0.N) (i : S10000x10.Idx) :
    i ∈ ((cfg0.win 7).blk t).view.set ↔ ∀ a : Fin 2, win0_7.index t a * S10000x10.size a ≤ (i a).val ∧ (i a).val < win0_7.index t a * S10000x10.size a + S10000x10.size a := by
  show i ∈ ((View.whole main_v3_1).slice (win0_7.rect t)).set ↔ _
  rw [View.set_slice_whole, Rect.mem_set_unit]
  exact Iff.rfl

/-- The last point writes the second result's window back, and its block is the whole array. -/
private theorem cover7 (i : S10000x10.Idx) :
    ∃ t : Fin cfg0.N, (cfg0.win 7).flush t = true ∧ i ∈ ((cfg0.win 7).blk t).view.set := by
  have h25 : cfg0.N = 25 := N_0
  obtain ⟨t, ht⟩ : ∃ t : Fin cfg0.N, t.val = 24 := ⟨⟨24, by omega⟩, rfl⟩
  refine ⟨t, (flush0_7 t).mpr (by omega), ?_⟩
  rw [mem_blk7]
  obtain ⟨-, -, -, -, -, ⟨e0, e1⟩⟩ := index_whole t
  have hi0 : (i 0).val < 10000 := (i 0).isLt
  have hi1 : (i 1).val < 10 := (i 1).isLt
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 10 ≤ (i 1).val ∧ (i 1).val < win0_7.index t (1 : Fin 2) * 10 + 10; omega

/-- The second result's array ends at the softmax the first point stored: its one block, the whole array, is written
    back once, after the last point. -/
theorem final7 (c : Dev nD) : ((dats m 0 c).arrAt 7 cfg0.N : S10000x10.Idx → Elt F .f32) = simv m c :=
  (dats m 0 c).arrAt_eq_of_cover 7 (simv m c) (fun t _ => flushed7_eq m c t) cover7

/-! ### The first result: 25 blocks of 400 rows, each written back at its own point -/

/-- Entry `(p, q)` of the first result's block at point `t` is entry `(400·t + p, q)` of the array. -/
private theorem read6_apply (G : S10000x128.Idx → Elt F .f32) (t : Fin cfg0.N) (p : Fin 400) (q : Fin 128) :
    (((cfg0.win 6).blk t).view.read (Elt F) G : S400x128.Idx → Elt F .f32) (ix2 p q) = G (ix2 (rowOf t p) q) := by
  show G (((cfg0.win 6).blk t).view.emb (ix2 p q)) = G (ix2 (rowOf t p) q)
  refine congrArg G ?_
  obtain ⟨-, ⟨e0, e1⟩⟩ := index_rows t
  funext a; apply Fin.ext
  match a with
  | ⟨0, _⟩ => show win0_6.index t (0 : Fin 2) * 400 + 1 * p.val = 400 * t.val + p.val; rw [e0]; omega
  | ⟨1, _⟩ => show win0_6.index t (1 : Fin 2) * 128 + 1 * q.val = q.val; rw [e1]; omega

/-- What point `t` writes back to the first result's array is block `t` of any function with those rows. -/
private theorem flushed6_eq (c : Dev nD) (G : S10000x128.Idx → Elt F .f32)
    (hG : ∀ (t : Fin cfg0.N) (p : Fin 400) (q : Fin 128), h1blk m c t (ix2 p q) = G (ix2 (rowOf t p) q))
    (t : Fin cfg0.N) :
    (dats m 0 c).flushed 6 t = ((cfg0.win 6).blk t).view.read (Elt F) G := by
  show (cfg0.win 6).cut (grid0.coords t) ((dats m 0 c).after 6 t) = _
  rw [after0_6]
  show (h1blk m c t : S400x128.Idx → Elt F .f32) = (((cfg0.win 6).blk t).view.read (Elt F) G : S400x128.Idx → Elt F .f32)
  funext y
  obtain ⟨p, q, rfl⟩ : ∃ (p : Fin 400) (q : Fin 128), y = ix2 p q := ⟨y 0, y 1, eq_ix2 y⟩
  exact (hG t p q).trans (read6_apply G t p q).symm

/-- An index of the first result's array is in point `t`'s block iff each coordinate is in the block's range. -/
private theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v3_0).slice (win0_6.rect t)).set ↔ _
  rw [View.set_slice_whole, Rect.mem_set_unit]
  exact Iff.rfl

/-- Row `r` of the first result's array is in the block of point `r / 400`, which writes it back. -/
private theorem cover6 (i : S10000x128.Idx) :
    ∃ t : Fin cfg0.N, (cfg0.win 6).flush t = true ∧ i ∈ ((cfg0.win 6).blk t).view.set := by
  have h25 : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by omega⟩, rfl⟩
  refine ⟨t, flush0_6 t, ?_⟩
  rw [mem_blk6]
  obtain ⟨-, ⟨e0, e1⟩⟩ := index_rows t
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- The first result's array ends at any function whose rows `400·t … 400·t + 399` are what point `t` stored, for
    every `t`: the 25 blocks tile the array and each is written back at its own point. -/
theorem final6 (c : Dev nD) (G : S10000x128.Idx → Elt F .f32)
    (hG : ∀ (t : Fin cfg0.N) (p : Fin 400) (q : Fin 128), h1blk m c t (ix2 p q) = G (ix2 (rowOf t p) q)) :
    ((dats m 0 c).arrAt 6 cfg0.N : S10000x128.Idx → Elt F .f32) = G :=
  (dats m 0 c).arrAt_eq_of_cover 6 G (fun t _ => flushed6_eq m c G hG t) cover6

end Cert.KernelIdeal.Hand

end
-- ==== Proof.BridgeZ.lean ====
import proofs.«103178_g55181739819284_cont_9to1_m_1118_2_alg».proof.Proof.Gen.KernelIdeal.Skeleton
import proofs.«103178_g55181739819284_cont_9to1_m_1118_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.ShloMosaic.ValueIdx
open Cert.ReferenceIdeal.Read

/-! ## The two sides' vocabulary

The reference reads the six argument arrays as they are launched; the kernel's windows hold three of them with a
unit axis dropped or added by a host reshape before the region.  The similarity half of the first grid point's work
is cut here into its two stages, the cosine similarities and their row softmax, each a function of the stage before. -/

/-- The argument arrays at the ideal instance, typed as the reference reads them. -/
abbrev Arr0 := (⟨Cert.ReferenceIdeal.S1x10000x128, .f32⟩ : BufTy).Contents (Elt Ideal)
abbrev Arr1 := (⟨Cert.ReferenceIdeal.S1x10000x10000, .f32⟩ : BufTy).Contents (Elt Ideal)
abbrev Arr2 := (⟨Cert.ReferenceIdeal.S128x128, .f32⟩ : BufTy).Contents (Elt Ideal)
abbrev Arr3 := (⟨Cert.ReferenceIdeal.S128, .f32⟩ : BufTy).Contents (Elt Ideal)
abbrev Arr5 := (⟨Cert.ReferenceIdeal.S10x128, .f32⟩ : BufTy).Contents (Elt Ideal)

/-- The node features as the kernel's first window holds them: the leading unit axis dropped. -/
abbrev xk (a0 : Arr0) : Vec Ideal Cert.KernelIdeal.S10000x128 .f32 :=
  shapeCast Cert.KernelIdeal.S10000x128 a0 Cert.KernelIdeal.Facts₀.shapeCasts_S1x10000x128_S10000x128

/-- The bias as the kernel's fourth window holds it: a row vector. -/
abbrev bk (a3 : Arr3) : Vec Ideal Cert.KernelIdeal.S1x128 .f32 :=
  shapeCast Cert.KernelIdeal.S1x128 a3 Cert.KernelIdeal.Facts₀.shapeCasts_S128_S1x128

/-- The adjacency matrix as the kernel's second window's array holds it: the leading unit axis dropped. -/
abbrev ak (a1 : Arr1) : Vec Ideal Cert.KernelIdeal.S10000x10000 .f32 :=
  shapeCast Cert.KernelIdeal.S10000x10000 a1 Cert.KernelIdeal.Facts₀.shapeCasts_S1x10000x10000_S10000x10000

variable {F : FTy → Type} [FloatOps F]

/-- The cosine similarities of the rows of `z` with the rows of `cl`, as the kernel body computes them: the matrix
    product of `z` with `cl` transposed, divided by the larger of the product of the two rows' Euclidean norms and
    the literal `1e-8`. -/
def cosK (z : FVec F Cert.KernelIdeal.S10000x128 .f32) (v22 : Vec F Cert.KernelIdeal.S10x128 .f32) : FVec F Cert.KernelIdeal.S10000x10 .f32 :=
  have cst_20 : FVec F Cert.KernelIdeal.S10000x10 .f32 := constant Cert.KernelIdeal.S10000x10 .f32 0x00000000#32
  have v23 : FVec F Cert.KernelIdeal.S10000x10 .f32 := matmul Cert.KernelIdeal.dot_S10000x128_S10x128_S10000x10_1_1_0_0_n_n none z v22 cst_20
  have v24 : FVec F Cert.KernelIdeal.S10000x128 .f32 := mulf z z
  have v25 : FVec F Cert.KernelIdeal.S10000 .f32 := multiReduction .add [1] Cert.KernelIdeal.S10000 v24 0x00000000#32 Cert.KernelIdeal.Facts₀.reduces_S10000x128_S10000 (.inl rfl) rfl
  have v26 : FVec F Cert.KernelIdeal.S10000x1 .f32 := shapeCast Cert.KernelIdeal.S10000x1 v25 Cert.KernelIdeal.Facts₀.shapeCasts_S10000_S10000x1
  have v27 : FVec F Cert.KernelIdeal.S10000x1 .f32 := sqrt v26
  have v28 : FVec F Cert.KernelIdeal.S10x128 .f32 := mulf v22 v22
  have v29 : FVec F Cert.KernelIdeal.S10 .f32 := multiReduction .add [1] Cert.KernelIdeal.S10 v28 0x00000000#32 Cert.KernelIdeal.Facts₀.reduces_S10x128_S10 (.inl rfl) rfl
  have v30 : FVec F Cert.KernelIdeal.S10 .f32 := sqrt v29
  have v31 : FVec F Cert.KernelIdeal.S1x10 .f32 := shapeCast Cert.KernelIdeal.S1x10 v30 Cert.KernelIdeal.Facts₀.shapeCasts_S10_S1x10
  have v32 : FVec F Cert.KernelIdeal.S10000x10 .f32 := broadcastTo Cert.KernelIdeal.S10000x10 v27 Cert.KernelIdeal.Facts₀.broadcasts_S10000x1_S10000x10
  have v33 : FVec F Cert.KernelIdeal.S10000x10 .f32 := broadcastTo Cert.KernelIdeal.S10000x10 v31 Cert.KernelIdeal.Facts₀.broadcasts_S1x10_S10000x10
  have v34 : FVec F Cert.KernelIdeal.S10000x10 .f32 := mulf v32 v33
  have cst_23 : F .f32 := Scalar.ofBits .f32 0x322BCC77#32
  have v35 : FVec F Cert.KernelIdeal.S10000x10 .f32 := broadcast Cert.KernelIdeal.S10000x10 cst_23
  have v36 : FVec F Cert.KernelIdeal.S10000x10 .f32 := maximumf v34 v35
  have v37 : FVec F Cert.KernelIdeal.S10000x10 .f32 := divf v23 v36
  v37

/-- The row softmax as the kernel body computes it: subtract the row maximum, exponentiate, divide by the row sum. -/
def softK (v37 : FVec F Cert.KernelIdeal.S10000x10 .f32) : FVec F Cert.KernelIdeal.S10000x10 .f32 :=
  have v38 : FVec F Cert.KernelIdeal.S10000 .f32 := multiReduction .maximumf [1] Cert.KernelIdeal.S10000 v37 0xFF800000#32 Cert.KernelIdeal.Facts₀.reduces_S10000x10_S10000 (.inl rfl) rfl
  have v39 : FVec F Cert.KernelIdeal.S10000x1 .f32 := shapeCast Cert.KernelIdeal.S10000x1 v38 Cert.KernelIdeal.Facts₀.shapeCasts_S10000_S10000x1
  have v40 : FVec F Cert.KernelIdeal.S10000x10 .f32 := broadcastTo Cert.KernelIdeal.S10000x10 v39 Cert.KernelIdeal.Facts₀.broadcasts_S10000x1_S10000x10
  have v41 : FVec F Cert.KernelIdeal.S10000x10 .f32 := subf v37 v40
  have v42 : FVec F Cert.KernelIdeal.S10000x10 .f32 := exp v41
  have v43 : FVec F Cert.KernelIdeal.S10000 .f32 := multiReduction .add [1] Cert.KernelIdeal.S10000 v42 0x00000000#32 Cert.KernelIdeal.Facts₀.reduces_S10000x10_S10000 (.inl rfl) rfl
  have v44 : FVec F Cert.KernelIdeal.S10000x1 .f32 := shapeCast Cert.KernelIdeal.S10000x1 v43 Cert.KernelIdeal.Facts₀.shapeCasts_S10000_S10000x1
  have v45 : FVec F Cert.KernelIdeal.S10000x10 .f32 := broadcastTo Cert.KernelIdeal.S10000x10 v44 Cert.KernelIdeal.Facts₀.broadcasts_S10000x1_S10000x10
  have v46 : FVec F Cert.KernelIdeal.S10000x10 .f32 := divf v42 v45
  v46

/-- The body's similarity payload is the softmax of the cosine similarities of the embedding's rows. -/
theorem pay4_eq (v9 : Vec F Cert.KernelIdeal.S10000x128 .f32) (v11 : Vec F Cert.KernelIdeal.S128x128 .f32) (v13 : Vec F Cert.KernelIdeal.S1x128 .f32)
    (v22 : Vec F Cert.KernelIdeal.S10x128 .f32) :
    Cert.KernelIdeal.Gen.k0_pay4 (F := F) v9 v11 v13 v22 = softK (cosK (Cert.KernelIdeal.Gen.k0_pay2 (F := F) v9 v11 v13) v22) := rfl

end Cert.Bridge

end
-- ==== Proof.BridgeEmb.lean ====
import proofs.«103178_g55181739819284_cont_9to1_m_1118_2_alg».proof.Proof.BridgeZ
import Idealize.ShloMosaic.Lib.KernelVsHost

noncomputable section

namespace Cert.Bridge

open Idealize.ShloMosaic Idealize.ShloMosaic.TcCoe Idealize.ShloMosaic.ValueIdx
open Cert.ReferenceIdeal.Read

/-! ## The embedding and the product kept in scratch

The kernel's two products `[10000,128]·[128,128]` contract the left operand's axis 1 with the right operand's axis 0,
as the reference's do: the two programs' dimension-number records have the same fields, so a matrix-unit product into a
zero accumulator is the host's product over the reference's record. -/

/-- A matrix-unit product `[10000,128]·[128,128]` into a zero accumulator is the host's product: the accumulator adds
    nothing, and the kernel's dimension numbers are the reference's. -/
private theorem matmul_emb_eq (l : FVec Ideal Cert.KernelIdeal.S10000x128 .f32) (r : FVec Ideal Cert.KernelIdeal.S128x128 .f32) :
    matmul Cert.KernelIdeal.dot_S10000x128_S128x128_S10000x128_1_0_0_1_n_n none l r
        (constant (F := Ideal) Cert.KernelIdeal.S10000x128 .f32 0x00000000#32)
      = Host.dotGeneral (F := Ideal) Cert.ReferenceIdeal.dot_S10000x128_S128x128_S10000x128_1_0_0_1_n_n none l r :=
  matmul_zero_eq_dotGeneral Cert.KernelIdeal.dot_S10000x128_S128x128_S10000x128_1_0_0_1_n_n none l r

/-- The bias row broadcast down the 10000 rows reads, at `(p, q)`, the bias at `q`. -/
private theorem bias_rows_apply (a3 : Arr3) (p : Fin 10000) (q : Fin 128) :
    broadcastTo Cert.KernelIdeal.S10000x128
        (shapeCast Cert.KernelIdeal.S1x128 (bk a3) Cert.KernelIdeal.Facts₀.shapeCasts_S1x128_S1x128)
        Cert.KernelIdeal.Facts₀.broadcasts_S1x128_S10000x128 (ix2 p q) = a3 (ix1 q) := by
  rw [shapeCast_self]
  exact (broadcastTo_1b_ab_apply (bk a3) _ p q).trans (shapeCast_a_1a_apply a3 _ 0 q)

/-- The reference's bias, broadcast `[128] → [1,128] → [10000,128]`, reads the same entry. -/
private theorem bias_ref_apply (a3 : Arr3) (p : Fin 10000) (q : Fin 128) :
    val_main_v4 (F := Ideal) a3 (ix2 p q) = a3 (ix1 q) := by
  rw [val_main_v4_apply, val_main_v3_apply]
  exact congrArg a3 (funext fun a => match a with | ⟨0, _⟩ => rfl)

/-- The embedding `x·W₁ + b`: the kernel's, computed on the matrix unit into a zero accumulator with the bias row
    broadcast down the rows, is the reference's, a host matrix product plus the bias broadcast. -/
theorem z_eq (a0 : Arr0) (a2 : Arr2) (a3 : Arr3) :
    Cert.KernelIdeal.Gen.k0_pay2 (F := Ideal) (xk a0) a2 (bk a3) = val_main_v5 (F := Ideal) a0 a2 a3 := by
  have hm : matmul (φ₁ := .f32) (φ₂ := .f32) Cert.KernelIdeal.dot_S10000x128_S128x128_S10000x128_1_0_0_1_n_n none
        (shapeCast Cert.KernelIdeal.S10000x128 (xk a0) Cert.KernelIdeal.Facts₀.shapeCasts_S10000x128_S10000x128) a2
        (constant (F := Ideal) Cert.KernelIdeal.S10000x128 .f32 0x00000000#32) = val_main_v2 (F := Ideal) a0 a2 := by
    rw [shapeCast_self]
    exact matmul_emb_eq (xk a0) a2
  have hb : broadcastTo Cert.KernelIdeal.S10000x128
        (shapeCast Cert.KernelIdeal.S1x128 (bk a3) Cert.KernelIdeal.Facts₀.shapeCasts_S1x128_S1x128)
        Cert.KernelIdeal.Facts₀.broadcasts_S1x128_S10000x128 = val_main_v4 (F := Ideal) a3 := by
    funext i
    obtain ⟨p, q, rfl⟩ : ∃ (p : Fin 10000) (q : Fin 128), i = ix2 p q := ⟨i 0, i 1, eq_ix2 i⟩
    exact (bias_rows_apply a3 p q).trans (bias_ref_apply a3 p q).symm
  exact congrArg₂ (addf (F := Ideal)) hm hb

/-- The product kept in scratch, `(x·W₁ + b)·W₂`: the kernel's matrix-unit product into a zero accumulator is the
    reference's host matrix product. -/
theorem supp_eq (a0 : Arr0) (a2 : Arr2) (a3 : Arr3) (a4 : Arr2) :
    Cert.KernelIdeal.Gen.k0_pay3 (F := Ideal) (xk a0) a2 (bk a3) a4 = val_main_v6 (F := Ideal) a0 a2 a3 a4 := by
  show shapeCast Cert.KernelIdeal.S10000x128
      (matmul Cert.KernelIdeal.dot_S10000x128_S128x128_S10000x128_1_0_0_1_n_n none
        (Cert.KernelIdeal.Gen.k0_pay2 (F := Ideal) (xk a0) a2 (bk a3)) a4
        (constant (F := Ideal) Cert.KernelIdeal.S10000x128 .f32 0x00000000#32))
      Cert.KernelIdeal.Facts₀.shapeCasts_S10000x128_S10000x128 = _
  rw [shapeCast_self, z_eq]
  exact matmul_emb_eq (val_main_v5 (F := Ideal) a0 a2 a3) a4

/-! ## One block of rows of `tanh (A · support)`

The block product `[400,10000]·[10000,128]` read at `(p, q)` is the sum over `k` of the block's `(p, k)` entry times the
right operand's `(k, q)` entry: the contraction index has one axis, of extent 10000, and the operand indices' coordinates
are read off the dimension numbers. -/

private theorem lhs_blk_0 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.lhsIdx i q 0).val = (i 0).val := by
  unfold DotDims.lhsIdx
  rw [dif_neg (show ¬(0 : Fin Cert.KernelIdeal.S400x10000.rank) ∈ Cert.KernelIdeal.dot_S400x10000_S10000x128_S400x128_1_0_0_1_n_n.lhsBatch by decide), dif_pos (show (0 : Fin Cert.KernelIdeal.S400x10000.rank) ∈ Cert.KernelIdeal.dot_S400x10000_S10000x128_S400x128_1_0_0_1_n_n.lhsNonContracting by decide)]
  rfl
private theorem lhs_blk_1 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.lhsIdx i q 1).val = (q ⟨0, by decide⟩).val :=
  Cert.KernelIdeal.dot_S400x10000_S10000x128_S400x128_1_0_0_1_n_n.lhsIdx_val_of_single rfl i q
private theorem rhs_blk_0 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.rhsIdx i q 0).val = (q ⟨0, by decide⟩).val :=
  Cert.KernelIdeal.dot_S400x10000_S10000x128_S400x128_1_0_0_1_n_n.rhsIdx_val_of_single rfl i q
private theorem rhs_blk_1 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.rhsIdx i q 1).val = (i 1).val := by
  unfold DotDims.rhsIdx
  rw [dif_neg (show ¬(1 : Fin Cert.KernelIdeal.S10000x128.rank) ∈ Cert.KernelIdeal.dot_S400x10000_S10000x128_S400x128_1_0_0_1_n_n.rhsBatch by decide), dif_pos (show (1 : Fin Cert.KernelIdeal.S10000x128.rank) ∈ Cert.KernelIdeal.dot_S400x10000_S10000x128_S400x128_1_0_0_1_n_n.rhsNonContracting by decide)]
  rfl

/-- The block product into a zero accumulator, read at `(p, q)`: the sum over the contracted coordinate. -/
private theorem matmul_blk_apply (l : FVec Ideal Cert.KernelIdeal.S400x10000 .f32) (r : FVec Ideal Cert.KernelIdeal.S10000x128 .f32)
    (p : Fin 400) (q : Fin 128) :
    matmul Cert.KernelIdeal.dot_S400x10000_S10000x128_S400x128_1_0_0_1_n_n none l r
        (constant (F := Ideal) Cert.KernelIdeal.S400x128 .f32 0x00000000#32) (ix2 p q)
      = ∑ k : Fin 10000, l (ix2 p k) * r (ix2 k q) := by
  refine (Ideal.matmul_constant_zero_apply Cert.KernelIdeal.dot_S400x10000_S10000x128_S400x128_1_0_0_1_n_n none l r (ix2 p q)).trans ?_
  rw [← Equiv.sum_comp (ValueIdx.contrEquiv1 Cert.KernelIdeal.dot_S400x10000_S10000x128_S400x128_1_0_0_1_n_n 10000 rfl rfl).symm]
  refine Finset.sum_congr rfl fun k _ => ?_
  have hk := ValueIdx.contrEquiv1_symm_val Cert.KernelIdeal.dot_S400x10000_S10000x128_S400x128_1_0_0_1_n_n 10000 rfl rfl k
  have el : Cert.KernelIdeal.dot_S400x10000_S10000x128_S400x128_1_0_0_1_n_n.lhsIdx (ix2 p q) ((ValueIdx.contrEquiv1 Cert.KernelIdeal.dot_S400x10000_S10000x128_S400x128_1_0_0_1_n_n 10000 rfl rfl).symm k) = ix2 p k := funext fun a => Fin.ext (by
    match a with
    | ⟨0, _⟩ => exact lhs_blk_0 _ _
    | ⟨1, _⟩ => exact (lhs_blk_1 _ _).trans hk)
  have er : Cert.KernelIdeal.dot_S400x10000_S10000x128_S400x128_1_0_0_1_n_n.rhsIdx (ix2 p q) ((ValueIdx.contrEquiv1 Cert.KernelIdeal.dot_S400x10000_S10000x128_S400x128_1_0_0_1_n_n 10000 rfl rfl).symm k) = ix2 k q := funext fun a => Fin.ext (by
    match a with
    | ⟨0, _⟩ => exact (rhs_blk_0 _ _).trans hk
    | ⟨1, _⟩ => exact rhs_blk_1 _ _)
  rw [el, er]

/-- One block of 400 rows of the first result: `tanh` of the adjacency block times the scratch is, row by row, the
    reference's `tanh (A · support)` at the block's rows (rows `r0 … r0 + 399` of the adjacency matrix). -/
theorem h1_rows (a0 : Arr0) (a1 : Arr1) (a2 : Arr2) (a3 : Arr3) (a4 : Arr2)
    (Ablk : Vec Ideal Cert.KernelIdeal.S400x10000 .f32) (r0 : ℕ) (hr : r0 + 400 ≤ 10000)
    (hA : ∀ (p : Fin 400) (q : Fin 10000), Ablk (ix2 p q) = ak a1 (ix2 ⟨r0 + p.val, by omega⟩ q))
    (p : Fin 400) (q : Fin 128) :
    Cert.KernelIdeal.Gen.k0_pay1 (F := Ideal) Ablk (val_main_v6 (F := Ideal) a0 a2 a3 a4) (ix2 p q)
      = val_main_v8 (F := Ideal) a0 a1 a2 a3 a4 (ix2 ⟨r0 + p.val, by omega⟩ q) := by
  -- the kernel's side: tanh of the block product's sum
  have hL : Cert.KernelIdeal.Gen.k0_pay1 (F := Ideal) Ablk (val_main_v6 (F := Ideal) a0 a2 a3 a4) (ix2 p q)
      = Ideal.tanh (∑ k : Fin 10000, Ablk (ix2 p k) * val_main_v6 (F := Ideal) a0 a2 a3 a4 (ix2 k q)) := by
    show Ideal.tanh (matmul Cert.KernelIdeal.dot_S400x10000_S10000x128_S400x128_1_0_0_1_n_n none
        (shapeCast Cert.KernelIdeal.S400x10000 Ablk Cert.KernelIdeal.Facts₀.shapeCasts_S400x10000_S400x10000)
        (val_main_v6 (F := Ideal) a0 a2 a3 a4)
        (constant (F := Ideal) Cert.KernelIdeal.S400x128 .f32 0x00000000#32) (ix2 p q)) = _
    rw [shapeCast_self, matmul_blk_apply]
  -- the reference's side: tanh of the full product's sum at row `r0 + p`
  have hR : val_main_v8 (F := Ideal) a0 a1 a2 a3 a4 (ix2 (⟨r0 + p.val, by omega⟩ : Fin 10000) q)
      = Ideal.tanh (∑ k : Fin 10000, val_main_v1 (F := Ideal) a1 (ix2 (⟨r0 + p.val, by omega⟩ : Fin 10000) k)
          * val_main_v6 (F := Ideal) a0 a2 a3 a4 (ix2 k q)) := by
    rw [val_main_v8_apply, val_main_v7_apply]
    show Ideal.tanh _ = Ideal.tanh _
    refine congrArg Ideal.tanh (Finset.sum_congr rfl fun k _ => ?_)
    have el : lidx_main_v7 (ix2 (⟨r0 + p.val, by omega⟩ : Fin 10000) q) k = ix2 (⟨r0 + p.val, by omega⟩ : Fin 10000) k :=
      funext fun a => match a with | ⟨0, _⟩ => rfl | ⟨1, _⟩ => rfl
    have er : ridx_main_v7 (ix2 (⟨r0 + p.val, by omega⟩ : Fin 10000) q) k = ix2 k q :=
      funext fun a => match a with | ⟨0, _⟩ => rfl | ⟨1, _⟩ => rfl
    rw [el, er]
  rw [hL, hR]
  refine congrArg Ideal.tanh (Finset.sum_congr rfl fun k _ => ?_)
  rw [hA p k]
  rfl

end Cert.Bridge

end
-- ==== Proof.BridgeCos.lean ====
import proofs.«103178_g55181739819284_cont_9to1_m_1118_2_alg».proof.Proof.BridgeZ

noncomputable section

namespace Cert.Bridge

open Idealize.ShloMosaic Idealize.ShloMosaic.TcCoe Idealize.ShloMosaic.ValueIdx
open Cert.ReferenceIdeal.Read

/-! ## The value both programs compute

Row `p` of the embedding `z` against row `j` of the cluster matrix `cl`: their inner product over the 128 features,
divided by the larger of the product of the two rows' Euclidean norms and the clamp literal.  The literal stays a word:
it is the same word on both sides and is never evaluated. -/

/-- The cosine similarity of row `p` of `z` with row `j` of `cl`, clamped from below in the denominator. -/
private def cosAt (z : FVec Ideal Cert.KernelIdeal.S10000x128 .f32) (cl : FVec Ideal Cert.KernelIdeal.S10x128 .f32)
    (p : Fin 10000) (j : Fin 10) : EReal :=
  Ideal.div (∑ k : Fin 128, z (ix2 p k) * cl (ix2 j k))
    (max (Ideal.sqrt (∑ k : Fin 128, z (ix2 p k) * z (ix2 p k)) * Ideal.sqrt (∑ k : Fin 128, cl (ix2 j k) * cl (ix2 j k)))
      (FloatOps.ofBits (F := Ideal) .f32 0x322BCC77#32))

/-! ## Layout operations of a kept unit axis, read at coordinates -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's reductions and its product, read at coordinates -/

/-- A sum along the rows of an `[a, b]` array at the ideal values: at row `p`, the sum over the `b` columns. -/
private theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The Euclidean norms of the rows of an `[a, b]` array, kept as a column and laid along `c` columns: at `(p, j)` the
    root of row `p`'s sum of squares. -/
private theorem rowNorm_cols_apply {a b c : ℕ} (v : FVec Ideal ⟨2, ![a, b]⟩ .f32)
    (h1 : (⟨2, ![a, b]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, c]⟩)
    (p : Fin a) (j : Fin c) :
    broadcastTo ⟨2, ![a, c]⟩
        (sqrt (shapeCast ⟨2, ![a, 1]⟩ (multiReduction .add [1] ⟨1, ![a]⟩ (mulf v v) 0x00000000#32 h1 hφ hacc) h2)) h3 (ix2 p j)
      = Ideal.sqrt (∑ k : Fin b, v (ix2 p k) * v (ix2 p k)) := by
  refine (broadcastTo_a1_ab_apply _ h3 p j).trans ?_
  refine congrArg Ideal.sqrt ((shapeCast_a_a1_apply _ h2 p 0).trans ?_)
  exact rowSum_apply (mulf v v) h1 hφ hacc p

/-- The Euclidean norms of the rows of an `[a, b]` array, laid as one row over `c` rows: at `(p, j)` the root of row
    `j`'s sum of squares. -/
private theorem rowNorm_rows_apply {a b c : ℕ} (v : FVec Ideal ⟨2, ![a, b]⟩ .f32)
    (h1 : (⟨2, ![a, b]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![1, a]⟩) (h3 : (⟨2, ![1, a]⟩ : Shape).Broadcasts ⟨2, ![c, a]⟩)
    (p : Fin c) (j : Fin a) :
    broadcastTo ⟨2, ![c, a]⟩
        (shapeCast ⟨2, ![1, a]⟩ (sqrt (multiReduction .add [1] ⟨1, ![a]⟩ (mulf v v) 0x00000000#32 h1 hφ hacc)) h2) h3 (ix2 p j)
      = Ideal.sqrt (∑ k : Fin b, v (ix2 j k) * v (ix2 j k)) := by
  refine (broadcastTo_1b_ab_apply _ h3 p j).trans ((shapeCast_a_1a_apply _ h2 0 j).trans ?_)
  exact congrArg Ideal.sqrt (rowSum_apply (mulf v v) h1 hφ hacc j)

/-! The product contracts the LAST axis of both operands (the cluster matrix enters untransposed), so the left operand
is read at `(p, k)` and the right at `(j, k)`. -/

private theorem lhs_cos_0 (i : Cert.KernelIdeal.S10000x10.Idx) (q : Cert.KernelIdeal.dot_S10000x128_S10x128_S10000x10_1_1_0_0_n_n.contr.Idx) :
    (Cert.KernelIdeal.dot_S10000x128_S10x128_S10000x10_1_1_0_0_n_n.lhsIdx i q 0).val = (i 0).val := by
  unfold DotDims.lhsIdx
  rw [dif_neg (show ¬(0 : Fin Cert.KernelIdeal.S10000x128.rank) ∈ Cert.KernelIdeal.dot_S10000x128_S10x128_S10000x10_1_1_0_0_n_n.lhsBatch by decide), dif_pos (show (0 : Fin Cert.KernelIdeal.S10000x128.rank) ∈ Cert.KernelIdeal.dot_S10000x128_S10x128_S10000x10_1_1_0_0_n_n.lhsNonContracting by decide)]
  rfl
private theorem lhs_cos_1 (i : Cert.KernelIdeal.S10000x10.Idx) (q : Cert.KernelIdeal.dot_S10000x128_S10x128_S10000x10_1_1_0_0_n_n.contr.Idx) :
    (Cert.KernelIdeal.dot_S10000x128_S10x128_S10000x10_1_1_0_0_n_n.lhsIdx i q 1).val = (q ⟨0, by decide⟩).val :=
  Cert.KernelIdeal.dot_S10000x128_S10x128_S10000x10_1_1_0_0_n_n.lhsIdx_val_of_single rfl i q
private theorem rhs_cos_0 (i : Cert.KernelIdeal.S10000x10.Idx) (q : Cert.KernelIdeal.dot_S10000x128_S10x128_S10000x10_1_1_0_0_n_n.contr.Idx) :
    (Cert.KernelIdeal.dot_S10000x128_S10x128_S10000x10_1_1_0_0_n_n.rhsIdx i q 0).val = (i 1).val := by
  unfold DotDims.rhsIdx
  rw [dif_neg (show ¬(0 : Fin Cert.KernelIdeal.S10x128.rank) ∈ Cert.KernelIdeal.dot_S10000x128_S10x128_S10000x10_1_1_0_0_n_n.rhsBatch by decide), dif_pos (show (0 : Fin Cert.KernelIdeal.S10x128.rank) ∈ Cert.KernelIdeal.dot_S10000x128_S10x128_S10000x10_1_1_0_0_n_n.rhsNonContracting by decide)]
  rfl
private theorem rhs_cos_1 (i : Cert.KernelIdeal.S10000x10.Idx) (q : Cert.KernelIdeal.dot_S10000x128_S10x128_S10000x10_1_1_0_0_n_n.contr.Idx) :
    (Cert.KernelIdeal.dot_S10000x128_S10x128_S10000x10_1_1_0_0_n_n.rhsIdx i q 1).val = (q ⟨0, by decide⟩).val :=
  Cert.KernelIdeal.dot_S10000x128_S10x128_S10000x10_1_1_0_0_n_n.rhsIdx_val_of_single rfl i q

/-- The kernel's product into a zero accumulator, at `(p, j)`: the inner product of row `p` of the left operand with
    row `j` of the right. -/
private theorem matmulT_apply (z : FVec Ideal Cert.KernelIdeal.S10000x128 .f32) (cl : FVec Ideal Cert.KernelIdeal.S10x128 .f32)
    (p : Fin 10000) (j : Fin 10) :
    matmul Cert.KernelIdeal.dot_S10000x128_S10x128_S10000x10_1_1_0_0_n_n none z cl (constant (F := Ideal) Cert.KernelIdeal.S10000x10 .f32 0x00000000#32) (ix2 p j)
      = ∑ k : Fin 128, z (ix2 p k) * cl (ix2 j k) := by
  simp only [matmul]
  rw [Ideal.matmul_constant_zero_apply, ← Equiv.sum_comp (contrEquiv1 Cert.KernelIdeal.dot_S10000x128_S10x128_S10000x10_1_1_0_0_n_n 128 rfl rfl).symm]
  refine Finset.sum_congr rfl fun k _ => ?_
  have hk := contrEquiv1_symm_val Cert.KernelIdeal.dot_S10000x128_S10x128_S10000x10_1_1_0_0_n_n 128 rfl rfl k
  have el : Cert.KernelIdeal.dot_S10000x128_S10x128_S10000x10_1_1_0_0_n_n.lhsIdx (ix2 p j) ((contrEquiv1 Cert.KernelIdeal.dot_S10000x128_S10x128_S10000x10_1_1_0_0_n_n 128 rfl rfl).symm k) = ix2 p k := funext fun a => Fin.ext (by
    match a with
    | ⟨0, _⟩ => exact lhs_cos_0 _ _
    | ⟨1, _⟩ => exact (lhs_cos_1 _ _).trans hk)
  have er : Cert.KernelIdeal.dot_S10000x128_S10x128_S10000x10_1_1_0_0_n_n.rhsIdx (ix2 p j) ((contrEquiv1 Cert.KernelIdeal.dot_S10000x128_S10x128_S10000x10_1_1_0_0_n_n 128 rfl rfl).symm k) = ix2 j k := funext fun a => Fin.ext (by
    match a with
    | ⟨0, _⟩ => exact rhs_cos_0 _ _
    | ⟨1, _⟩ => exact (rhs_cos_1 _ _).trans hk)
  rw [el, er]

/-- The kernel's chain at `(p, j)`. -/
private theorem cosK_apply (z : FVec Ideal Cert.KernelIdeal.S10000x128 .f32) (cl : FVec Ideal Cert.KernelIdeal.S10x128 .f32)
    (p : Fin 10000) (j : Fin 10) : cosK (F := Ideal) z cl (ix2 p j) = cosAt z cl p j := by
  unfold cosK cosAt
  exact congrArg₂ Ideal.div (matmulT_apply z cl p j)
    (congrArg₂ (max : EReal → EReal → EReal)
      (congrArg₂ (fun x y : EReal => x * y) (rowNorm_cols_apply z _ _ _ _ _ p j) (rowNorm_rows_apply cl _ _ _ _ _ p j)) rfl)

/-! ## The reference's stages, read at coordinates -/

/-- The reference's product with the transposed cluster matrix, at `(p, j)`. -/
private theorem ref_dot (a0 : Arr0) (a2 : Arr2) (a3 : Arr3) (a5 : Arr5) (p : Fin 10000) (j : Fin 10) :
    val_main_v10 (F := Ideal) a0 a2 a3 a5 (ix2 p j)
      = ∑ k : Fin 128, val_main_v5 (F := Ideal) a0 a2 a3 (ix2 p k) * a5 (ix2 j k) := by
  rw [val_main_v10_apply]
  refine Finset.sum_congr rfl fun k _ => ?_
  have el : lidx_main_v10 (ix2 p j) k = ix2 p k := funext fun a => Fin.ext (by
    match a with
    | ⟨0, _⟩ => rfl
    | ⟨1, _⟩ => rfl)
  have er : idx_main_v9 (ridx_main_v10 (ix2 p j) k) = ix2 j k := funext fun a => Fin.ext (by
    match a with
    | ⟨0, _⟩ => rfl
    | ⟨1, _⟩ => rfl)
  rw [val_main_v9_apply, el, er]

/-- The norms of the embedding's rows, broadcast along the clusters, at `(p, j)`. -/
private theorem ref_normZ (a0 : Arr0) (a2 : Arr2) (a3 : Arr3) (p : Fin 10000) (j : Fin 10) :
    val_main_v14 (F := Ideal) a0 a2 a3 (ix2 p j)
      = Ideal.sqrt (∑ k : Fin 128, val_main_v5 (F := Ideal) a0 a2 a3 (ix2 p k) * val_main_v5 (F := Ideal) a0 a2 a3 (ix2 p k)) := by
  rw [val_main_v14_apply, val_main_v11_apply, val_main_call0_v2_apply, val_main_call0_v1_apply, val_main_call0_cst_apply,
    Ideal.hostUnary_sqrt_def, Ideal.ofBits_def, Ideal.ofBits_zero_f32, zero_add]
  refine congrArg Ideal.sqrt (Finset.sum_congr rfl fun k _ => ?_)
  have e : idx_main_call0_v1 (idx_main_call0_v2 (idx_main_v14 (ix2 p j))) k = ix2 p k := funext fun a => Fin.ext (by
    match a with
    | ⟨0, _⟩ => rfl
    | ⟨1, _⟩ => rfl)
  rw [val_main_call0_v0_apply, e, Ideal.mulf_def]

/-- The norms of the cluster rows, transposed to one row and broadcast down the nodes, at `(p, j)`. -/
private theorem ref_normC (a5 : Arr5) (p : Fin 10000) (j : Fin 10) :
    val_main_v15 (F := Ideal) a5 (ix2 p j) = Ideal.sqrt (∑ k : Fin 128, a5 (ix2 j k) * a5 (ix2 j k)) := by
  rw [val_main_v15_apply, val_main_v13_apply, val_main_v12_apply, val_main_call1_v2_apply, val_main_call1_v1_apply,
    val_main_call1_cst_apply, Ideal.hostUnary_sqrt_def, Ideal.ofBits_def, Ideal.ofBits_zero_f32, zero_add]
  refine congrArg Ideal.sqrt (Finset.sum_congr rfl fun k _ => ?_)
  have e : idx_main_call1_v1 (idx_main_call1_v2 (idx_main_v13 (idx_main_v15 (ix2 p j)))) k = ix2 j k := funext fun a => Fin.ext (by
    match a with
    | ⟨0, _⟩ => rfl
    | ⟨1, _⟩ => rfl)
  rw [val_main_call1_v0_apply, e, Ideal.mulf_def]

/-- The reference's chain at `(p, j)`. -/
private theorem ref_apply (a0 : Arr0) (a2 : Arr2) (a3 : Arr3) (a5 : Arr5) (p : Fin 10000) (j : Fin 10) :
    val_main_v19 (F := Ideal) a0 a2 a3 a5 (ix2 p j) = cosAt (val_main_v5 (F := Ideal) a0 a2 a3) a5 p j := by
  unfold cosAt
  rw [val_main_v19_apply, val_main_v18_apply, val_main_v16_apply]
  exact congrArg₂ Ideal.div (ref_dot a0 a2 a3 a5 p j)
    (congrArg₂ (max : EReal → EReal → EReal)
      (congrArg₂ (fun x y : EReal => x * y) (ref_normZ a0 a2 a3 p j) (ref_normC a5 p j))
      ((val_main_v17_apply _).trans (val_main_cst_apply _)))

/-- The cosine similarities: the kernel's chain over the embedding is the reference's (`jnp.linalg.norm` twice, a
    transposed matrix product, a quotient by the clamped product of norms), index by index. -/
theorem cos_eq (a0 : Arr0) (a2 : Arr2) (a3 : Arr3) (a5 : Arr5) :
    cosK (F := Ideal) (val_main_v5 (F := Ideal) a0 a2 a3) a5 = val_main_v19 (F := Ideal) a0 a2 a3 a5 := by
  funext i
  obtain ⟨p, j, rfl⟩ : ∃ (p : Fin 10000) (j : Fin 10), i = ix2 p j := ⟨i 0, i 1, eq_ix2 i⟩
  exact (cosK_apply _ _ p j).trans (ref_apply a0 a2 a3 a5 p j).symm

end Cert.Bridge

end
-- ==== Proof.BridgeSoft.lean ====
import proofs.«103178_g55181739819284_cont_9to1_m_1118_2_alg».proof.Proof.BridgeZ

noncomputable section

namespace Cert.Bridge

open Idealize.ShloMosaic Idealize.ShloMosaic.TcCoe Idealize.ShloMosaic.ValueIdx
open Cert.ReferenceIdeal.Read

/-! ## A column of row values, and a row's coordinates -/

section Layout
variable {α : Type}

/-- An `[a]` array cast to the column `[a, 1]` reads, at `(p, u)`, the operand at `p`, whatever the unit coordinate. -/
private theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of row values, made a column and broadcast along the rows, reads its row's value at every column. -/
private theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- The row index `p` with the column `k` put back on the reduced axis is `(p, k)`. -/
private theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c
  match c with
  | ⟨0, _⟩ => exact Fin.ext rfl
  | ⟨1, _⟩ => exact Fin.ext rfl

end Layout

/-! ## The kernel's chain, stage by stage -/

section Kernel
variable (s : FVec Ideal Cert.KernelIdeal.S10000x10 .f32)

/-- The kernel's row maxima: each row's maximum-reduction from minus infinity. -/
private def kMax : FVec Ideal Cert.KernelIdeal.S10000 .f32 :=
  multiReduction (F := Ideal) .maximumf [1] Cert.KernelIdeal.S10000 s 0xFF800000#32
    Cert.KernelIdeal.Facts₀.reduces_S10000x10_S10000 (.inl rfl) rfl

/-- A vector of row values made a column and broadcast along the rows, as the kernel does twice. -/
private def kCol (v : FVec Ideal Cert.KernelIdeal.S10000 .f32) : FVec Ideal Cert.KernelIdeal.S10000x10 .f32 :=
  broadcastTo Cert.KernelIdeal.S10000x10
    (shapeCast Cert.KernelIdeal.S10000x1 v Cert.KernelIdeal.Facts₀.shapeCasts_S10000_S10000x1)
    Cert.KernelIdeal.Facts₀.broadcasts_S10000x1_S10000x10

/-- The kernel's exponentials of the entries less their row's maximum. -/
private def kExp : FVec Ideal Cert.KernelIdeal.S10000x10 .f32 :=
  exp (F := Ideal) (subf (F := Ideal) s (kCol (kMax s)))

/-- The kernel's row sums of those exponentials. -/
private def kSum : FVec Ideal Cert.KernelIdeal.S10000 .f32 :=
  multiReduction (F := Ideal) .add [1] Cert.KernelIdeal.S10000 (kExp s) 0x00000000#32
    Cert.KernelIdeal.Facts₀.reduces_S10000x10_S10000 (.inl rfl) rfl

/-- The kernel's softmax is the quotient of the exponentials by their row sums. -/
private theorem softK_eq : softK (F := Ideal) s = divf (F := Ideal) (kExp s) (kCol (kSum s)) := rfl

/-- The column of row values reads its row's value at every column. -/
private theorem kCol_apply (v : FVec Ideal Cert.KernelIdeal.S10000 .f32) (p : Fin 10000) (c : Fin 10) :
    kCol v (ix2 p c) = v (ix1 p) :=
  keepdims_apply v Cert.KernelIdeal.Facts₀.shapeCasts_S10000_S10000x1
    Cert.KernelIdeal.Facts₀.broadcasts_S10000x1_S10000x10 p c

/-- The row maximum is the fold of `max` over the row's ten entries, from the accumulator's value. -/
private theorem kMax_apply (p : Fin 10000) :
    kMax s (ix1 p)
      = (Finset.univ : Finset (Fin (Cert.KernelIdeal.S10000x10.size 1))).fold max
          (FloatOps.ofBits (F := Ideal) .f32 0xFF800000#32)
          (s ∘ Cert.KernelIdeal.Facts₀.reduces_S10000x10_S10000.lift (ix1 p)) :=
  Ideal.multiReduction_maximumf_single s 0xFF800000#32 Cert.KernelIdeal.Facts₀.reduces_S10000x10_S10000
    (.inl rfl) rfl (ix1 p)

/-- So the accumulator's value is below every row maximum. -/
private theorem acc_le_kMax (p : Fin 10000) :
    FloatOps.ofBits (F := Ideal) .f32 0xFF800000#32 ≤ kMax s (ix1 p) := by
  rw [kMax_apply]
  exact (Finset.le_fold_max _).2 (Or.inl le_rfl)

/-- An exponential at `(p, c)`. -/
private theorem kExp_apply (p : Fin 10000) (c : Fin 10) :
    kExp s (ix2 p c) = Ideal.exp (s (ix2 p c) - kMax s (ix1 p)) := by
  show Ideal.exp (s (ix2 p c) - kCol (kMax s) (ix2 p c)) = _
  rw [kCol_apply]

/-- A row sum is the sum over the row's ten columns. -/
private theorem kSum_apply (p : Fin 10000) :
    kSum s (ix1 p) = ∑ k : Fin 10, kExp s (ix2 p k) :=
  (Ideal.multiReduction_add_single (kExp s) 0x00000000#32 Cert.KernelIdeal.Facts₀.reduces_S10000x10_S10000
      (.inl rfl) rfl (ix1 p)).trans
    (Finset.sum_congr rfl fun k _ =>
      congrArg (kExp s) (lift_axis1 Cert.KernelIdeal.Facts₀.reduces_S10000x10_S10000 p k))

/-- The kernel's softmax at `(p, j)`. -/
private theorem softK_apply (p : Fin 10000) (j : Fin 10) :
    softK (F := Ideal) s (ix2 p j)
      = Ideal.div (Ideal.exp (s (ix2 p j) - kMax s (ix1 p)))
          (∑ k : Fin 10, Ideal.exp (s (ix2 p k) - kMax s (ix1 p))) := by
  rw [softK_eq, divf_apply, kExp_apply, kCol_apply, kSum_apply]
  exact congrArg (Ideal.div _) (Finset.sum_congr rfl fun k _ => kExp_apply s p k)

end Kernel

/-! ## The reference's chain -/

section Reference
variable (a0 : Arr0) (a2 : Arr2) (a3 : Arr3) (a5 : Arr5)

/-- The reference's two keepdims columns read row `p` of the reduced vector ... -/
private theorem idx_v23_v24 (p : Fin 10000) (c : Fin 10) : idx_main_v23 (idx_main_v24 (ix2 p c)) = ix1 p :=
  funext fun a => Fin.ext (by match a with | ⟨0, _⟩ => rfl)
private theorem idx_v28_v29 (p : Fin 10000) (c : Fin 10) : idx_main_v28 (idx_main_v29 (ix2 p c)) = ix1 p :=
  funext fun a => Fin.ext (by match a with | ⟨0, _⟩ => rfl)
/-- ... and its row sum runs over the entries `(p, k)`. -/
private theorem idx_v27 (p : Fin 10000) (k : Fin 10) : idx_main_v27 (ix1 p) k = ix2 p k :=
  funext fun a => Fin.ext (by match a with | ⟨0, _⟩ => rfl | ⟨1, _⟩ => rfl)

/-- The host's maximum-reduction of a row from minus infinity is the kernel's: both are the fold of `max` over the
    row's ten entries from the accumulator's value. -/
private theorem hostMax_eq (y : FVec Ideal Cert.KernelIdeal.S10000x10 .f32)
    (h' : Cert.KernelIdeal.S10000x10.ReducesTo [1] Cert.KernelIdeal.S10000) (hu : 0 < (⟨0, ![]⟩ : Shape).numel)
    (p : Fin 10000) :
    Host.reduce (FloatOps.maximumf (F := Ideal) (φ := .f32)) y (constant (F := Ideal) ⟨0, ![]⟩ .f32 0xFF800000#32) h' hu (ix1 p)
      = kMax y (ix1 p) :=
  (Host.reduce_eq_fold_single (FloatOps.maximumf (F := Ideal) (φ := .f32)) y _ h'
      Cert.KernelIdeal.Facts₀.reduces_S10000x10_S10000 hu (ix1 p)).trans (kMax_apply y p).symm

/-- The reference's reduced maximum at row `p`. -/
private theorem v20_at (p : Fin 10000) :
    val_main_v20 (F := Ideal) a0 a2 a3 a5 (ix1 p) = kMax (val_main_v19 (F := Ideal) a0 a2 a3 a5) (ix1 p) := by
  unfold val_main_v20
  generalize val_main_v19 (F := Ideal) a0 a2 a3 a5 = y
  exact hostMax_eq y _ _ p

/-- Taking the maximum with minus infinity once more changes nothing. -/
private theorem v22_at (p : Fin 10000) :
    val_main_v22 (F := Ideal) a0 a2 a3 a5 (ix1 p) = kMax (val_main_v19 (F := Ideal) a0 a2 a3 a5) (ix1 p) := by
  rewrite [val_main_v22_apply, val_main_v21_apply, val_main_cst_1_apply, v20_at]
  exact max_eq_right (acc_le_kMax _ p)

/-- The reference's exponentials at `(p, c)`. -/
private theorem v26_at (p : Fin 10000) (c : Fin 10) :
    val_main_v26 (F := Ideal) a0 a2 a3 a5 (ix2 p c)
      = Ideal.exp (val_main_v19 (F := Ideal) a0 a2 a3 a5 (ix2 p c) - val_main_v22 (F := Ideal) a0 a2 a3 a5 (ix1 p)) := by
  rewrite [val_main_v26_apply, val_main_v25_apply, val_main_v24_apply, val_main_v23_apply, idx_v23_v24]
  rfl

/-- The reference's softmax at `(p, j)`. -/
private theorem v30_at (p : Fin 10000) (j : Fin 10) :
    val_main_v30 (F := Ideal) a0 a2 a3 a5 (ix2 p j)
      = Ideal.div (Ideal.exp (val_main_v19 (F := Ideal) a0 a2 a3 a5 (ix2 p j) - val_main_v22 (F := Ideal) a0 a2 a3 a5 (ix1 p)))
          (∑ k : Fin 10, Ideal.exp (val_main_v19 (F := Ideal) a0 a2 a3 a5 (ix2 p k)
            - val_main_v22 (F := Ideal) a0 a2 a3 a5 (ix1 p))) := by
  rewrite [val_main_v30_apply, val_main_v29_apply, val_main_v28_apply, idx_v28_v29, val_main_v27_apply,
    val_main_cst_2_apply, v26_at]
  simp only [Ideal.hostDivf_def, Ideal.ofBits_def, Ideal.ofBits_zero_f32, zero_add]
  refine congrArg (Ideal.div _) (Finset.sum_congr rfl fun k _ => ?_)
  rewrite [idx_v27, v26_at]
  rfl

end Reference

/-- The row softmax: the kernel's chain over the similarities is the reference's `jax.nn.softmax` (whose row maximum is
    taken once more against minus infinity, which changes nothing), index by index. -/
theorem soft_eq (a0 : Arr0) (a2 : Arr2) (a3 : Arr3) (a5 : Arr5) :
    softK (F := Ideal) (val_main_v19 (F := Ideal) a0 a2 a3 a5) = val_main_v30 (F := Ideal) a0 a2 a3 a5 := by
  funext i
  obtain ⟨p, j, rfl⟩ : ∃ (p : Fin 10000) (j : Fin 10), i = ix2 p j := ⟨i 0, i 1, eq_ix2 i⟩
  rw [softK_apply, v30_at, v22_at]

end Cert.Bridge

end
-- ==== Proof.lean ====
/- The kernel streams a 10000×10000 adjacency matrix through one pipelined call in 25 blocks of 400 rows.  Its first
   grid point also computes the embedding z = x·W₁ + b, keeps support = z·W₂ in a scratch buffer, and stores the row
   softmax of the cosine similarities between z's rows and the ten cluster centres; every point stores
   tanh (A_block · support).  The reference computes the same two results with whole-array host operations.
   At the ideal instance both are the same sums, products, maxima, square roots, exponentials and quotients of the
   same extended reals, index by index, so the two programs end with equal results; no input need be finite for that.
   The three frames: each kernel program's from the pipeline's run over proof data that names what every staging
   buffer and the scratch hold point by point; the reference's from its run with the results dropped. -/
import proofs.«103178_g55181739819284_cont_9to1_m_1118_2_alg».proof.Defs
import proofs.«103178_g55181739819284_cont_9to1_m_1118_2_alg».proof.Proof.Gen.Kernel
import proofs.«103178_g55181739819284_cont_9to1_m_1118_2_alg».proof.Proof.Gen.KernelIdeal
import proofs.«103178_g55181739819284_cont_9to1_m_1118_2_alg».proof.Proof.Gen.ReferenceIdeal
import proofs.«103178_g55181739819284_cont_9to1_m_1118_2_alg».proof.Proof.Gen.Pre_finite_inputs
import proofs.«103178_g55181739819284_cont_9to1_m_1118_2_alg».proof.Proof.Gen.ReferenceIdeal.Run
import proofs.«103178_g55181739819284_cont_9to1_m_1118_2_alg».proof.Proof.Gen.ReferenceIdeal.Read
import proofs.«103178_g55181739819284_cont_9to1_m_1118_2_alg».proof.Proof.FrameBits
import proofs.«103178_g55181739819284_cont_9to1_m_1118_2_alg».proof.Proof.FrameIdeal
import proofs.«103178_g55181739819284_cont_9to1_m_1118_2_alg».proof.Proof.ArraysIdeal
import proofs.«103178_g55181739819284_cont_9to1_m_1118_2_alg».proof.Proof.BridgeEmb
import proofs.«103178_g55181739819284_cont_9to1_m_1118_2_alg».proof.Proof.BridgeCos
import proofs.«103178_g55181739819284_cont_9to1_m_1118_2_alg».proof.Proof.BridgeSoft
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.KernelIdeal Cert.KernelIdeal.Gen Cert.KernelIdeal.Hand Cert.Bridge Cert.ReferenceIdeal.Read

variable (m : (ℓ : Loc Cert.KernelIdeal.nD Cert.KernelIdeal.τ Cert.KernelIdeal.sig) → Buf (Elt Ideal) ℓ)

/-- The body's similarity payload on the kernel's view of the arguments is the reference's second result: the
    embedding, then the cosine similarities, then the row softmax, stage by stage. -/
theorem sim_eq (a0 : Arr0) (a2 : Arr2) (a3 : Arr3) (a5 : Arr5) :
    k0_pay4 (F := Ideal) (xk a0) a2 (bk a3) a5 = val_main_v30 (F := Ideal) a0 a2 a3 a5 := by
  rw [pay4_eq, z_eq, cos_eq, soft_eq]

/-- The product the first point keeps in scratch is the reference's `(x·W₁ + b)·W₂`. -/
theorem supp_value (c : Dev Cert.KernelIdeal.nD) :
    supp (F := Ideal) m c = val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  unfold supp
  rw [iblk0_eq, iblk2_eq, iblk3_eq, iblk4_eq, V_main_v0, V_main_v2]
  exact supp_eq _ _ _ _

/-- The softmax the first point stores is the reference's second result. -/
theorem simv_value (c : Dev Cert.KernelIdeal.nD) :
    simv (F := Ideal) m c = val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := by
  unfold simv
  rw [iblk0_eq, iblk2_eq, iblk3_eq, iblk5_eq, V_main_v0, V_main_v2]
  exact sim_eq _ _ _ _

/-- What point `t` stores is rows `400·t … 400·t + 399` of the reference's first result. -/
theorem h1_value (c : Dev Cert.KernelIdeal.nD) (t : Fin cfg0.N) (p : Fin 400) (q : Fin 128) :
    h1blk (F := Ideal) m c t (ix2 p q)
      = val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix2 (rowOf t p) q) := by
  unfold h1blk
  rw [supp_value m c]
  have h25 : cfg0.N = 25 := N_0
  exact h1_rows _ _ _ _ _ (iblk m c 1 t) (400 * t.val) (by have := t.isLt; omega)
    (fun p q => (iblk1_apply m c t p q).trans (by rw [V_main_v1]; rfl)) p q

variable (ρ : Dev Cert.KernelIdeal.nD → PrngReg)

/-- The idealized kernel's run with both results named: the reference's two stages of the argument arrays. -/
theorem kernel_run :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3_0)
            = val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_v3_1)
            = val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c =>
    ⟨((h c).1 6).trans (final6 m c _ (h1_value m c)),
     ((h c).1 7).trans ((final7 m c).trans (simv_value m c)),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c),
     ((h c).1 4).trans (((dats m 0 c).arrAt_in 4 rfl _).trans ((A_eq m c 4).trans (V_main_arg4 m c))),
     ((h c).1 5).trans (((dats m 0 c).arrAt_in 5 rfl _).trans ((A_eq m c 5).trans (V_main_arg5 m c)))⟩)
    (run_main m ρ)

end Cert.Proof

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the six arguments the two idealized programs end with the same two results: the
    kernel's arrays are the reference's two stages of the arguments, and the reference's run ends at those stages. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨?_, ?_, (h c).2.2⟩)
    (Cert.ReferenceIdeal.Value.run (F := Ideal) m' ρ')
  · rw [(h c).1, (hagree c).1, (hagree c).2.1, (hagree c).2.2.1, (hagree c).2.2.2.1, (hagree c).2.2.2.2.1]
    exact Cert.ReferenceIdeal.Read.val_main_v8_eq _ _ _ _ _
  · rw [(h c).2.1, Cert.ReferenceIdeal.Read.val_main_v30_eq, (hagree c).1, (hagree c).2.2.1, (hagree c).2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
